-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_
  slices_S2x800000_S1x800000_1_0 : S2x800000.Slices ![1, 0] S1x800000
  shapeCasts_S1x800000_S800000 : S1x800000.ShapeCasts S800000

variable [Facts]

def fn_part2 {F : FTy → Type} [FloatOps F] (main_v28 : IVec S_ 1) (main_v32 : IVec S800000 1) (main_v34 : IVec S800000 32) : IVec S_ 1 :=
  let main_c_11 : IVec S_ 32 := constantI S_ 32 50000#32
  let main_v35 : IVec S800000 32 := broadcastInDim S800000 ![] bcast_S_S800000 main_c_11
  let main_v36 : IVec S800000 1 := cmpi .slt main_v34 main_v35
  let main_v37 : IVec S800000 1 := andi main_v32 main_v36
  let main_c_12 : IVec S_ 1 := constantI S_ 1 1#1
  let main_v38 : IVec S_ 1 := (fun x v => Host.reduce IntOp.andi x v reducesTo_S800000_S_d0 h_S_) main_v37 main_c_12
  let main_v39 : IVec S_ 1 := andi main_v28 main_v38
  main_v39

def fn_part1 {F : FTy → Type} [FloatOps F] (main_arg1 : IVec S2x800000 32) (main_arg5 : FVec F S40x128 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : IVec S1x800000 32 := (extractStridedSlice S1x800000 ![1, 0] · slices_S2x800000_S1x800000_1_0) main_arg1
  let main_v30 : IVec S800000 32 := shapeCast S800000 main_v29 shapeCasts_S1x800000_S800000
  let main_c_10 : IVec S_ 32 := constantI S_ 32 4294917296#32
  let main_v31 : IVec S800000 32 := broadcastInDim S800000 ![] bcast_S_S800000 main_c_10
  let main_v32 : IVec S800000 1 := cmpi .sge main_v30 main_v31
  let main_v33 : IVec S1x800000 32 := (extractStridedSlice S1x800000 ![1, 0] · slices_S2x800000_S1x800000_1_0) main_arg1
  let main_v34 : IVec S800000 32 := shapeCast S800000 main_v33 shapeCasts_S1x800000_S800000
  fn_part2 (F := F) main_v28 main_v32 main_v34

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S40x128 .f32) (main_arg6 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000x1 : Shape := ⟨2, ![800000, 1]⟩
abbrev S_ : Shape := ⟨0, ![]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S5000x128 : Shape := ⟨2, ![5000, 128]⟩
abbrev S128x40 : Shape := ⟨2, ![128, 40]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 83
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S40x128, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x128, .f32⟩
  | .hbm, ⟨31, _⟩ => ⟨S800000x128, .i1⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S1x128, .f32⟩
  | .hbm, ⟨44, _⟩ => ⟨S50000x128, .f32⟩
  | .hbm, ⟨45, _⟩ => ⟨S1x800000, .i32⟩
  | .hbm, ⟨46, _⟩ => ⟨S800000, .i32⟩
  | .hbm, ⟨47, _⟩ => ⟨S1x800000, .i32⟩
  | .hbm, ⟨48, _⟩ => ⟨S800000, .i32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S1, .i32⟩
  | .hbm, ⟨59, _⟩ => ⟨S_, .i32⟩
  | .hbm, ⟨60, _⟩ => ⟨S800000x1, .i32⟩
  | .hbm, ⟨61, _⟩ => ⟨S800000x1, .i1⟩
  | .hbm, ⟨62, _⟩ => ⟨S1x1, .i32⟩
  | .hbm, ⟨63, _⟩ => ⟨S800000x1, .i32⟩
  | .hbm, ⟨64, _⟩ => ⟨S800000x1, .i1⟩
  | .hbm, ⟨65, _⟩ => ⟨S800000x1, .i1⟩
  | .hbm, ⟨66, _⟩ => ⟨S_, .i1⟩
  | .hbm, ⟨67, _⟩ => ⟨S800000, .i1⟩
  | .hbm, ⟨68, _⟩ => ⟨S800000x128, .f32⟩
  | .hbm, ⟨69, _⟩ => ⟨S800000x128, .i1⟩
  | .hbm, ⟨70, _⟩ => ⟨S_, .f32⟩
  | .hbm, ⟨71, _⟩ => ⟨S800000x128, .f32⟩
  | .hbm, ⟨72, _⟩ => ⟨S800000x128, .f32⟩
  | .hbm, ⟨73, _⟩ => ⟨S800000x128, .f32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S50000x128, .f32⟩
  | .hbm, ⟨80, _⟩ => ⟨S128x40, .f32⟩
  | .hbm, ⟨81, _⟩ => ⟨S1x40, .f32⟩
  | .hbm, ⟨82, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x40, .f32⟩
  | .local _ .vmem, ⟨9, _⟩ => ⟨S1x40, .f32⟩
  | .local _ .vmem, ⟨10, _⟩ => ⟨S5000x40, .f32⟩
  | .local _ .vmem, ⟨11, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_cst_0 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S40x128, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S128x128, .f32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S50000x128, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S1x800000, .i32⟩
  | .hbm, ⟨37, _⟩ => ⟨S800000, .i32⟩
  | .hbm, ⟨38, _⟩ => ⟨S1x800000, .i32⟩
  | .hbm, ⟨39, _⟩ => ⟨S800000, .i32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S128x40, .f32⟩
  | .hbm, ⟨58, _⟩ => ⟨S50000x40, .f32⟩
  | .hbm, ⟨59, _⟩ => ⟨S1x40, .f32⟩
  | .hbm, ⟨60, _⟩ => ⟨S50000x40, .f32⟩
  | .hbm, ⟨61, _⟩ => ⟨S50000x40, .f32⟩
  | .hbm, ⟨62, _⟩ => ⟨S_, .f32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x40, .f32⟩
  | .hbm, ⟨69, _⟩ => ⟨S50000x40, .f32⟩
  | .hbm, ⟨70, _⟩ => ⟨S50000x40, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S50000x1, .f32⟩
  | .hbm, ⟨75, _⟩ => ⟨S50000x40, .f32⟩
  | .hbm, ⟨76, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_1 : Ref sig .tc := ⟨.hbm, 41, rfl⟩
abbrev main_v29 : Ref sig .tc := ⟨.hbm, 42, rfl⟩
abbrev main_v30 : Ref sig .tc := ⟨.hbm, 43, rfl⟩
abbrev main_c_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call1_cst : Ref sig .tc := ⟨.hbm, 62, rfl⟩
abbrev main_call1_v0 : Ref sig .tc := ⟨.hbm, 63, rfl⟩
abbrev main_call1_cst_0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_cst_1 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_v47 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.RefStaged.lean ====
/-
  The reference's run, read back stage by stage.

  The reference is a straight line of 70 host operations. Every weakly fair execution runs them in order, so each buffer
  ends at the fold of the operations' results over the launch contents. The fold is read in five stretches — the first
  aggregation x + A·x (operations 0–20), the first dense layer (21–28), the second aggregation (29–49), the logits
  (50–54) and the log-softmax (55–69) — each stretch from the contents the one before leaves, whatever they are, so no
  stretch's term is ever written inside another's. The log-softmax is itself read in three parts (the row maximum, the
  centring, the rest), so that the row maximum stays one closed term. The result is the last stage function applied to
  the arguments.
-/
import proofs.«424046_j57440892616781_1_alg».proof.Proof.RefRun
import proofs.«424046_j57440892616781_1_alg».proof.Proof.RefRead

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The fold over a concatenation -/

/-- Folding a concatenation is folding the second list from what the first leaves. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The stretches of the program: five stages, the last in three parts -/

/-- The first aggregation, x ↦ x + A·x: the edge list's two rows, the source row wrapped into range, the sources' rows of x
    gathered and scaled by the edge weights, summed into the destinations' rows of a zero matrix, and x added. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg2 main_v4 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_arg0 main_v10 main_v11 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v4 main_v12 (broadcastInDim S800000x128 ![0, 1] bcast_S800000x1_S800000x128_0_1 : (⟨S800000x1, .f32⟩ : BufTy).Contents (Elt F) → (⟨S800000x128, .f32⟩ : BufTy).Contents (Elt F)),
    binary main_v12 main_v11 main_v13 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    unary main_cst main_v14 (broadcastInDim S50000x128 ![] bcast_S_S50000x128 : (⟨S_, .f32⟩ : BufTy).Contents (Elt F) → (⟨S50000x128, .f32⟩ : BufTy).Contents (Elt F)),
    unary main_v1 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v16 main_v17 (addf : (⟨S50000x128, .f32⟩ : BufTy).Contents (Elt F) → (⟨S50000x128, .f32⟩ : BufTy).Contents (Elt F) → (⟨S50000x128, .f32⟩ : BufTy).Contents (Elt F)) ]

/-- The first dense layer with its rectifier: h ↦ max (h · Wᵀ + b) 0. -/
abbrev opsB : List (HloOp τ sig (Elt F)) :=
  [ unary main_arg3 main_v18 ((transpose S128x128 [1, 0] · transposes_S128x128_S128x128_1_0) : (⟨S128x128, .f32⟩ : BufTy).Contents (Elt F) → (⟨S128x128, .f32⟩ : BufTy).Contents (Elt F)),
    binary main_v17 main_v18 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S50000x128 ![0, 1] bcast_S1x128_S50000x128_0_1 : (⟨S1x128, .f32⟩ : BufTy).Contents (Elt F) → (⟨S50000x128, .f32⟩ : BufTy).Contents (Elt F)),
    binary main_v19 main_v21 main_v22 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v22) (TRef.of (T := ⟨S50000x128, .f32⟩) main_call0_v0) (TRef.of (T := ⟨S50000x128, .f32⟩) main_v23) maximumf ]

/-- The second aggregation: the same x ↦ x + A·x, of the hidden layer. -/
abbrev opsC : List (HloOp τ sig (Elt F)) :=
  [ unary main_arg1 main_v24 ((extractStridedSlice S1x800000 ![0, 0] · slices_S2x800000_S1x800000_0_0) : (⟨S2x800000, .i32⟩ : BufTy).Contents (Elt F) → (⟨S1x800000, .i32⟩ : BufTy).Contents (Elt F)),
    reshape main_v24 main_v25 rfl shapeCasts_S1x800000_S800000,
    unary main_arg1 main_v26 ((extractStridedSlice S1x800000 ![1, 0] · slices_S2x800000_S1x800000_1_0) : (⟨S2x800000, .i32⟩ : BufTy).Contents (Elt F) → (⟨S1x800000, .i32⟩ : BufTy).Contents (Elt F)),
    reshape main_v26 main_v27 rfl shapeCasts_S1x800000_S800000,
    unary main_arg2 main_v28 (broadcastInDim S800000x1 ![0] bcast_S800000_S800000x1_0 : (⟨S800000, .f32⟩ : BufTy).Contents (Elt F) → (⟨S800000x1, .f32⟩ : BufTy).Contents (Elt F)),
    nullary main_c_1 (constantI S_ 32 0#32),
    unary main_c_1 main_v29 (broadcastInDim S800000 ![] bcast_S_S800000 : (⟨S_, .i32⟩ : BufTy).Contents (Elt F) → (⟨S800000, .i32⟩ : BufTy).Contents (Elt F)),
    binary main_v27 main_v29 main_v30 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v31 (broadcastInDim S800000 ![] bcast_S_S800000 : (⟨S_, .i32⟩ : BufTy).Contents (Elt F) → (⟨S800000, .i32⟩ : BufTy).Contents (Elt F)),
    binary main_v27 main_v31 main_v32 (addi : (⟨S800000, .i32⟩ : BufTy).Contents (Elt F) → (⟨S800000, .i32⟩ : BufTy).Contents (Elt F) → (⟨S800000, .i32⟩ : BufTy).Contents (Elt F)),
    ternary main_v30 main_v32 main_v27 main_v33 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v33 main_v34 (broadcastInDim S800000x1 ![0] bcast_S800000_S800000x1_0 : (⟨S800000, .i32⟩ : BufTy).Contents (Elt F) → (⟨S800000x1, .i32⟩ : BufTy).Contents (Elt F)),
    binary main_v23 main_v34 main_v35 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v28 main_v36 (broadcastInDim S800000x128 ![0, 1] bcast_S800000x1_S800000x128_0_1 : (⟨S800000x1, .f32⟩ : BufTy).Contents (Elt F) → (⟨S800000x128, .f32⟩ : BufTy).Contents (Elt F)),
    binary main_v36 main_v35 main_v37 (mulf : (⟨S800000x128, .f32⟩ : BufTy).Contents (Elt F) → (⟨S800000x128, .f32⟩ : BufTy).Contents (Elt F) → (⟨S800000x128, .f32⟩ : BufTy).Contents (Elt F)),
    nullary main_cst_3 (constant S_ .f32 0x00000000#32),
    unary main_cst_3 main_v38 (broadcastInDim S50000x128 ![] bcast_S_S50000x128 : (⟨S_, .f32⟩ : BufTy).Contents (Elt F) → (⟨S50000x128, .f32⟩ : BufTy).Contents (Elt F)),
    unary main_v25 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v23 main_v40 main_v41 (addf : (⟨S50000x128, .f32⟩ : BufTy).Contents (Elt F) → (⟨S50000x128, .f32⟩ : BufTy).Contents (Elt F) → (⟨S50000x128, .f32⟩ : BufTy).Contents (Elt F)) ]

/-- The logits: h ↦ h · Wᵀ + b. -/
abbrev opsD : List (HloOp τ sig (Elt F)) :=
  [ unary main_arg5 main_v42 ((transpose S128x40 [1, 0] · transposes_S40x128_S128x40_1_0) : (⟨S40x128, .f32⟩ : BufTy).Contents (Elt F) → (⟨S128x40, .f32⟩ : BufTy).Contents (Elt F)),
    binary main_v41 main_v42 main_v43 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg6 main_v44 (broadcastInDim S1x40 ![1] bcast_S40_S1x40_1 : (⟨S40, .f32⟩ : BufTy).Contents (Elt F) → (⟨S1x40, .f32⟩ : BufTy).Contents (Elt F)),
    unary main_v44 main_v45 (broadcastInDim S50000x40 ![0, 1] bcast_S1x40_S50000x40_0_1 : (⟨S1x40, .f32⟩ : BufTy).Contents (Elt F) → (⟨S50000x40, .f32⟩ : BufTy).Contents (Elt F)),
    binary main_v43 main_v45 main_v46 (addf : (⟨S50000x40, .f32⟩ : BufTy).Contents (Elt F) → (⟨S50000x40, .f32⟩ : BufTy).Contents (Elt F) → (⟨S50000x40, .f32⟩ : BufTy).Contents (Elt F)) ]

/-- The log-softmax, first part: each row's maximum, from −∞. -/
abbrev opsE0 : List (HloOp τ sig (Elt F)) :=
  [ TRef.nullary (TRef.of (T := ⟨S_, .f32⟩) main_call1_cst) (constant S_ .f32 0xFF800000#32),
    TRef.binary (TRef.of (T := ⟨S50000x40, .f32⟩) main_v46) (TRef.of (T := ⟨S_, .f32⟩) main_call1_cst) (TRef.of (T := ⟨S50000, .f32⟩) main_call1_v0) (fun x v => Host.reduce FloatOps.maximumf x v reducesTo_S50000x40_S50000_d1 h_S_) ]

/-- The log-softmax, second part: each row's entries less the row's maximum. -/
abbrev opsE1 : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v46) (TRef.of (T := ⟨S50000x40, .f32⟩) main_call1_v4) (TRef.of (T := ⟨S50000x40, .f32⟩) main_call1_v5) subf ]

/-- The log-softmax, last part: s ↦ s − log Σ exp s along each row. -/
abbrev opsE2 : List (HloOp τ sig (Elt F)) :=
  [ TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v47) subf ]

/-- The program is its stretches, one after the other. -/
theorem ops_split : (ops : List (HloOp τ sig (Elt F))) = opsA ++ opsB ++ opsC ++ opsD ++ opsE0 ++ opsE1 ++ opsE2 := rfl

/-! ## What each stretch computes, as a function of what it reads -/

/-- The source column of the edge list, a negative index wrapped by the number of nodes. -/
def srcIdx (ei : (⟨S2x800000, .i32⟩ : BufTy).Contents (Elt F)) : (⟨S800000, .i32⟩ : BufTy).Contents (Elt F) :=
  select
    (cmpi .slt (shapeCast _ (extractStridedSlice S1x800000 ![1, 0] ei slices_S2x800000_S1x800000_1_0) shapeCasts_S1x800000_S800000)
      (broadcastInDim S800000 ![] bcast_S_S800000 (constantI S_ 32 0#32)))
    (addi (shapeCast _ (extractStridedSlice S1x800000 ![1, 0] ei slices_S2x800000_S1x800000_1_0) shapeCasts_S1x800000_S800000)
      (broadcastInDim S800000 ![] bcast_S_S800000 (constantI S_ 32 50000#32)))
    (shapeCast _ (extractStridedSlice S1x800000 ![1, 0] ei slices_S2x800000_S1x800000_1_0) shapeCasts_S1x800000_S800000)

/-- One aggregation over the graph: x plus, at each destination node, the sum over its edges of the edge's weight times
    the source node's row of x. -/
def agg (x : (⟨S50000x128, .f32⟩ : BufTy).Contents (Elt F)) (ei : (⟨S2x800000, .i32⟩ : BufTy).Contents (Elt F)) (w : (⟨S800000, .f32⟩ : BufTy).Contents (Elt F)) : (⟨S50000x128, .f32⟩ : BufTy).Contents (Elt F) :=
  addf x
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0
        (shapeCast _ (extractStridedSlice S1x800000 ![0, 0] ei slices_S2x800000_S1x800000_0_0) shapeCasts_S1x800000_S800000))
      (mulf
        (broadcastInDim S800000x128 ![0, 1] bcast_S800000x1_S800000x128_0_1 (broadcastInDim S800000x1 ![0] bcast_S800000_S800000x1_0 w))
        (Host.gather gather_S50000x128_S800000x1_S800000x128_1_0_n_n_0_1_1128 x
          (broadcastInDim S800000x1 ![0] bcast_S800000_S800000x1_0 (srcIdx ei)))))

/-- A dense layer with a rectifier: max (h · wᵀ + b) 0, the bias spread over the rows. -/
def dense (h : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  maximumf
    (addf (Host.dotGeneral dot_S50000x128_S128x128_S50000x128_1_0_0_1_n_n none h (transpose S128x128 [1, 0] w transposes_S128x128_S128x128_1_0))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The output layer: h · wᵀ + b, the bias spread over the rows. -/
def logits (h : (⟨S50000x128, .f32⟩ : BufTy).Contents (Elt F)) (w : (⟨S40x128, .f32⟩ : BufTy).Contents (Elt F)) (b : (⟨S40, .f32⟩ : BufTy).Contents (Elt F)) : (⟨S50000x40, .f32⟩ : BufTy).Contents (Elt F) :=
  addf (Host.dotGeneral dot_S50000x128_S128x40_S50000x40_1_0_0_1_n_n none h (transpose S128x40 [1, 0] w transposes_S40x128_S128x40_1_0))
    (broadcastInDim S50000x40 ![0, 1] bcast_S1x40_S50000x40_0_1 (broadcastInDim S1x40 ![1] bcast_S40_S1x40_1 b))

/-- Each row's maximum, taken from −∞. -/
def rowMax (z : (⟨S50000x40, .f32⟩ : BufTy).Contents (Elt F)) : (⟨S50000, .f32⟩ : BufTy).Contents (Elt F) :=
  Host.reduce FloatOps.maximumf z (constant S_ .f32 0xFF800000#32) reducesTo_S50000x40_S50000_d1 h_S_

/-- A row's entries less a value per row (itself first raised to at least −∞). -/
def centred (z : (⟨S50000x40, .f32⟩ : BufTy).Contents (Elt F)) (mx : (⟨S50000, .f32⟩ : BufTy).Contents (Elt F)) : (⟨S50000x40, .f32⟩ : BufTy).Contents (Elt F) :=
  subf z
    (broadcastInDim S50000x40 ![0, 1] bcast_S50000x1_S50000x40_0_1
      (broadcastInDim S50000x1 ![0] bcast_S50000_S50000x1_0
        (maximumf (broadcastInDim S50000 ![] bcast_S_S50000 (constant S_ .f32 0xFF800000#32)) mx)))

/-- A row's entries less the logarithm of the sum of their exponentials. -/
def lessLogSumExp (s : (⟨S50000x40, .f32⟩ : BufTy).Contents (Elt F)) : (⟨S50000x40, .f32⟩ : BufTy).Contents (Elt F) :=
  subf s
    (broadcastInDim S50000x40 ![0, 1] bcast_S50000x1_S50000x40_0_1
      (Host.log
        (broadcastInDim S50000x1 ![0] bcast_S50000_S50000x1_0
          (Host.reduceAdd (Host.exp s) (constant S_ .f32 0x00000000#32) reducesTo_S50000x40_S50000_d1 h_S_))))

/-- The log-softmax of each row. -/
def logSoftmax (z : (⟨S50000x40, .f32⟩ : BufTy).Contents (Elt F)) : (⟨S50000x40, .f32⟩ : BufTy).Contents (Elt F) := lessLogSumExp (centred z (rowMax z))

/-! ## Each stretch read back, from any contents -/

/-- After the first aggregation the sum buffer holds `agg` of the three arguments it reads. -/
theorem readA (V : Valuation τ sig (Elt F)) :
    after opsA V (Proc.devRef .tc main_v17)
      = agg (F := F) (V (Proc.devRef .tc main_arg0)) (V (Proc.devRef .tc main_arg1)) (V (Proc.devRef .tc main_arg2)) := by
  after_results_simp <;> rfl

/-- After the dense layer its result buffer holds `dense` of the aggregate and the layer's two parameters. -/
theorem readB (V : Valuation τ sig (Elt F)) :
    after opsB V (Proc.devRef .tc main_v23)
      = dense (F := F) (V (Proc.devRef .tc main_v17)) (V (Proc.devRef .tc main_arg3)) (V (Proc.devRef .tc main_arg4)) := by
  after_results_simp <;> rfl

/-- After the second aggregation the sum buffer holds `agg` of the hidden layer, the edge list and the weights. -/
theorem readC (V : Valuation τ sig (Elt F)) :
    after opsC V (Proc.devRef .tc main_v41)
      = agg (F := F) (V (Proc.devRef .tc main_v23)) (V (Proc.devRef .tc main_arg1)) (V (Proc.devRef .tc main_arg2)) := by
  after_results_simp <;> rfl

/-- After the output layer its result buffer holds `logits` of the second aggregate and the layer's two parameters. -/
theorem readD (V : Valuation τ sig (Elt F)) :
    after opsD V (Proc.devRef .tc main_v46)
      = logits (F := F) (V (Proc.devRef .tc main_v41)) (V (Proc.devRef .tc main_arg5)) (V (Proc.devRef .tc main_arg6)) := by
  after_results_simp <;> rfl

/-- After the first part the maximum's buffer holds each row's maximum of the logits. The typed references of the inlined
    function carry their contents along an equation of types that is the identity; it is removed first, so that the two
    sides meet as the same term and the fold over a row is never opened. -/
theorem readE0 (V : Valuation τ sig (Elt F)) :
    after opsE0 V (Proc.devRef .tc main_call1_v0) = rowMax (F := F) (V (Proc.devRef .tc main_v46)) := by
  after_results_simp
  simp only [TRef.ofBuf, TRef.toBuf, cast_eq]
  rfl

/-- After the second part its last buffer holds the logits less the row maxima it was given. -/
theorem readE1 (V : Valuation τ sig (Elt F)) :
    after opsE1 V (Proc.devRef .tc main_call1_v5)
      = centred (F := F) (V (Proc.devRef .tc main_v46)) (V (Proc.devRef .tc main_call1_v0)) := by
  after_results_simp <;> rfl

/-- After the last part the result buffer holds the centred logits less the logarithm of their exponentials' sum. -/
theorem readE2 (V : Valuation τ sig (Elt F)) :
    after opsE2 V (Proc.devRef .tc main_v47) = lessLogSumExp (F := F) (V (Proc.devRef .tc main_call1_v5)) := by
  after_results_simp <;> rfl

/-! ## What a stretch does not write it leaves alone -/

theorem keepA_arg1 (V : Valuation τ sig (Elt F)) :
    after opsA V (Proc.devRef .tc main_arg1) = V (Proc.devRef .tc main_arg1) := by
  after_results_simp

theorem keepA_arg2 (V : Valuation τ sig (Elt F)) :
    after opsA V (Proc.devRef .tc main_arg2) = V (Proc.devRef .tc main_arg2) := by
  after_results_simp

theorem keepA_arg3 (V : Valuation τ sig (Elt F)) :
    after opsA V (Proc.devRef .tc main_arg3) = V (Proc.devRef .tc main_arg3) := by
  after_results_simp

theorem keepA_arg4 (V : Valuation τ sig (Elt F)) :
    after opsA V (Proc.devRef .tc main_arg4) = V (Proc.devRef .tc main_arg4) := by
  after_results_simp

theorem keepA_arg5 (V : Valuation τ sig (Elt F)) :
    after opsA V (Proc.devRef .tc main_arg5) = V (Proc.devRef .tc main_arg5) := by
  after_results_simp

theorem keepA_arg6 (V : Valuation τ sig (Elt F)) :
    after opsA V (Proc.devRef .tc main_arg6) = V (Proc.devRef .tc main_arg6) := by
  after_results_simp

theorem keepB_arg1 (V : Valuation τ sig (Elt F)) :
    after opsB V (Proc.devRef .tc main_arg1) = V (Proc.devRef .tc main_arg1) := by
  after_results_simp

theorem keepB_arg2 (V : Valuation τ sig (Elt F)) :
    after opsB V (Proc.devRef .tc main_arg2) = V (Proc.devRef .tc main_arg2) := by
  after_results_simp

theorem keepB_arg5 (V : Valuation τ sig (Elt F)) :
    after opsB V (Proc.devRef .tc main_arg5) = V (Proc.devRef .tc main_arg5) := by
  after_results_simp

theorem keepB_arg6 (V : Valuation τ sig (Elt F)) :
    after opsB V (Proc.devRef .tc main_arg6) = V (Proc.devRef .tc main_arg6) := by
  after_results_simp

theorem keepC_arg5 (V : Valuation τ sig (Elt F)) :
    after opsC V (Proc.devRef .tc main_arg5) = V (Proc.devRef .tc main_arg5) := by
  after_results_simp

theorem keepC_arg6 (V : Valuation τ sig (Elt F)) :
    after opsC V (Proc.devRef .tc main_arg6) = V (Proc.devRef .tc main_arg6) := by
  after_results_simp

/-- The first part of the log-softmax leaves the logits where they are. -/
theorem keepE0_v46 (V : Valuation τ sig (Elt F)) :
    after opsE0 V (Proc.devRef .tc main_v46) = V (Proc.devRef .tc main_v46) := by
  after_results_simp

/-! ## The stage functions of the arguments, as the stretches' functions composed -/

section Stages

variable (x0 : (⟨S50000x128, .f32⟩ : BufTy).Contents (Elt F)) (x1 : (⟨S2x800000, .i32⟩ : BufTy).Contents (Elt F)) (x2 : (⟨S800000, .f32⟩ : BufTy).Contents (Elt F)) (x3 : (⟨S128x128, .f32⟩ : BufTy).Contents (Elt F)) (x4 : (⟨S128, .f32⟩ : BufTy).Contents (Elt F)) (x5 : (⟨S40x128, .f32⟩ : BufTy).Contents (Elt F)) (x6 : (⟨S40, .f32⟩ : BufTy).Contents (Elt F))

theorem v17_eq : val_main_v17 (F := F) x0 x1 x2 = agg x0 x1 x2 := by
  unfold val_main_v17 val_main_v16 val_main_v15 val_main_v14 val_main_cst val_main_v13 val_main_v12 val_main_v11 val_main_v10
    val_main_v9 val_main_v8 val_main_v7 val_main_c_0 val_main_v6 val_main_v5 val_main_c val_main_v4 val_main_v3 val_main_v2
    val_main_v1 val_main_v0 agg srcIdx
  rfl

theorem v23_eq : val_main_v23 (F := F) x0 x1 x2 x3 x4 = dense (val_main_v17 x0 x1 x2) x3 x4 := by
  unfold val_main_v23 val_main_call0_v0 val_main_call0_cst val_main_v22 val_main_v21 val_main_v20 val_main_v19 val_main_v18 dense
  rfl

theorem v41_eq : val_main_v41 (F := F) x0 x1 x2 x3 x4 = agg (val_main_v23 x0 x1 x2 x3 x4) x1 x2 := by
  unfold val_main_v41 val_main_v40 val_main_v39 val_main_v38 val_main_cst_3 val_main_v37 val_main_v36 val_main_v35 val_main_v34
    val_main_v33 val_main_v32 val_main_v31 val_main_c_2 val_main_v30 val_main_v29 val_main_c_1 val_main_v28 val_main_v27 val_main_v26
    val_main_v25 val_main_v24 agg srcIdx
  rfl

theorem v46_eq : val_main_v46 (F := F) x0 x1 x2 x3 x4 x5 x6 = logits (val_main_v41 x0 x1 x2 x3 x4) x5 x6 := by
  unfold val_main_v46 val_main_v45 val_main_v44 val_main_v43 val_main_v42 logits
  rfl

theorem v47_eq : val_main_v47 (F := F) x0 x1 x2 x3 x4 x5 x6 = logSoftmax (val_main_v46 x0 x1 x2 x3 x4 x5 x6) := by
  unfold val_main_v47 val_main_call1_v10 val_main_call1_v9 val_main_call1_v8 val_main_call1_v7 val_main_call1_cst_1 val_main_call1_v6
    val_main_call1_v5 val_main_call1_v4 val_main_call1_v3 val_main_call1_v2 val_main_call1_v1 val_main_call1_cst_0 val_main_call1_v0
    val_main_call1_cst logSoftmax lessLogSumExp centred rowMax
  rfl

/-- The last stage function is the stretches' functions, each applied to the one before. -/
theorem v47_staged : val_main_v47 (F := F) x0 x1 x2 x3 x4 x5 x6
    = logSoftmax (logits (agg (dense (agg x0 x1 x2) x3 x4) x1 x2) x5 x6) := by
  rw [v47_eq, v46_eq, v41_eq, v23_eq, v17_eq]

end Stages

/-! ## The whole fold -/

/-- From any contents, the fold of all 70 operations leaves the result buffer at the last stage function of the contents
    of the seven argument buffers: each stretch is read from what the earlier ones leave, and the arguments pass through
    the stretches that do not write them. -/
theorem key (W : Valuation τ sig (Elt F)) :
    after ops W (Proc.devRef .tc main_v47)
      = val_main_v47 (F := F) (W (Proc.devRef .tc main_arg0)) (W (Proc.devRef .tc main_arg1)) (W (Proc.devRef .tc main_arg2))
          (W (Proc.devRef .tc main_arg3)) (W (Proc.devRef .tc main_arg4)) (W (Proc.devRef .tc main_arg5)) (W (Proc.devRef .tc main_arg6)) := by
  rw [ops_split, after_app, after_app, after_app, after_app, after_app, after_app, readE2, readE1, readE0, keepE0_v46, readD, readC, keepC_arg5, keepC_arg6, readB, keepB_arg1,
    keepB_arg2, keepB_arg5, keepB_arg6, readA, keepA_arg1, keepA_arg2, keepA_arg3, keepA_arg4, keepA_arg5, keepA_arg6, v47_staged, logSoftmax]

/-- No operation writes argument 0. -/
theorem keep_arg0 (W : Valuation τ sig (Elt F)) : after ops W (Proc.devRef .tc main_arg0) = W (Proc.devRef .tc main_arg0) := by
  after_results_simp

/-- No operation writes argument 1. -/
theorem keep_arg1 (W : Valuation τ sig (Elt F)) : after ops W (Proc.devRef .tc main_arg1) = W (Proc.devRef .tc main_arg1) := by
  after_results_simp

/-- No operation writes argument 2. -/
theorem keep_arg2 (W : Valuation τ sig (Elt F)) : after ops W (Proc.devRef .tc main_arg2) = W (Proc.devRef .tc main_arg2) := by
  after_results_simp

/-- No operation writes argument 3. -/
theorem keep_arg3 (W : Valuation τ sig (Elt F)) : after ops W (Proc.devRef .tc main_arg3) = W (Proc.devRef .tc main_arg3) := by
  after_results_simp

/-- No operation writes argument 4. -/
theorem keep_arg4 (W : Valuation τ sig (Elt F)) : after ops W (Proc.devRef .tc main_arg4) = W (Proc.devRef .tc main_arg4) := by
  after_results_simp

/-- No operation writes argument 5. -/
theorem keep_arg5 (W : Valuation τ sig (Elt F)) : after ops W (Proc.devRef .tc main_arg5) = W (Proc.devRef .tc main_arg5) := by
  after_results_simp

/-- No operation writes argument 6. -/
theorem keep_arg6 (W : Valuation τ sig (Elt F)) : after ops W (Proc.devRef .tc main_arg6) = W (Proc.devRef .tc main_arg6) := by
  after_results_simp

/-- On every device, for any float values, from any memory with zero counters: every weakly fair execution of the
    reference's @main terminates with its result at the last stage's value of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = val_main_v47 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c => ⟨(h c main_v47).trans (key _),
      (h c main_arg0).trans (keep_arg0 _), (h c main_arg1).trans (keep_arg1 _), (h c main_arg2).trans (keep_arg2 _),
      (h c main_arg3).trans (keep_arg3 _), (h c main_arg4).trans (keep_arg4 _), (h c main_arg5).trans (keep_arg5 _),
      (h c main_arg6).trans (keep_arg6 _)⟩)
    (run_seq scopedRefs_eq scopedSems_eq defs main (fun _ => ops) main_eq (fun _ => ops_sub) m ρ)

end Cert.ReferenceIdeal.Staged

end
-- ==== Proof.Spec.lean ====
/-
  The mathematics both programs compute, index by index, at the ideal values (floats are extended reals).

  One graph-convolution layer is  h ↦ act((h + A·h) Wᵀ + b):  the sparse product A·h is computed on the host by both
  programs with the same operations, so it never has to be opened here; what the two programs do differently is the
  dense part, and this module says what that part is as ONE function of its operands:

  * `linRelu X Wt b`      — row p, column q:  max(Σₖ X[p,k]·Wt[k,q] + b[q], 0);
  * `linLogSoftmax X Wt b` — row p, column q:  z[p,q] − M[p] − log Σ_q' exp(z[p,q'] − M[p]),  where
                              z[p,q] = Σₖ X[p,k]·Wt[k,q] + b[q]  and  M[p] = max_q' z[p,q']  (the fold of max from −∞).

  `Wt` is the weight matrix already transposed ([128, n]); `b` is the bias laid out as a one-row matrix [1, n]
  (`asRow128` / `asRow40` lay a plain vector out so).
-/
import Idealize.ShloMosaic.PureOps.Ideal
import Idealize.ShloMosaic.Lib.ValueIdx

noncomputable section

namespace Cert.Spec

open Idealize.ShloMosaic Idealize.ShloMosaic.ValueIdx

/-- A bias vector of length 128 as a one-row matrix. -/
def asRow128 (b : FVec Ideal ⟨1, ![128]⟩ .f32) : FVec Ideal ⟨2, ![1, 128]⟩ .f32 := fun j => b (ix1 (j 1))

/-- A bias vector of length 40 as a one-row matrix. -/
def asRow40 (b : FVec Ideal ⟨1, ![40]⟩ .f32) : FVec Ideal ⟨2, ![1, 40]⟩ .f32 := fun j => b (ix1 (j 1))

theorem asRow128_apply (b : FVec Ideal ⟨1, ![128]⟩ .f32) (r : Fin 1) (q : Fin 128) : asRow128 b (ix2 r q) = b (ix1 q) := rfl

theorem asRow40_apply (b : FVec Ideal ⟨1, ![40]⟩ .f32) (r : Fin 1) (q : Fin 40) : asRow40 b (ix2 r q) = b (ix1 q) := rfl

/-- Entry (p, q) of X·Wt + b for a 128-column result. -/
def affine128 (X : FVec Ideal ⟨2, ![50000, 128]⟩ .f32) (Wt : FVec Ideal ⟨2, ![128, 128]⟩ .f32)
    (b : FVec Ideal ⟨2, ![1, 128]⟩ .f32) (p : Fin 50000) (q : Fin 128) : EReal :=
  (∑ k : Fin 128, X (ix2 p k) * Wt (ix2 k q)) + b (ix2 (0 : Fin 1) q)

/-- Entry (p, q) of X·Wt + b for a 40-column result. -/
def affine40 (X : FVec Ideal ⟨2, ![50000, 128]⟩ .f32) (Wt : FVec Ideal ⟨2, ![128, 40]⟩ .f32)
    (b : FVec Ideal ⟨2, ![1, 40]⟩ .f32) (p : Fin 50000) (q : Fin 40) : EReal :=
  (∑ k : Fin 128, X (ix2 p k) * Wt (ix2 k q)) + b (ix2 (0 : Fin 1) q)

/-- The first layer's dense part: max(X·Wt + b, 0), entry by entry. -/
def linRelu (X : FVec Ideal ⟨2, ![50000, 128]⟩ .f32) (Wt : FVec Ideal ⟨2, ![128, 128]⟩ .f32)
    (b : FVec Ideal ⟨2, ![1, 128]⟩ .f32) : FVec Ideal ⟨2, ![50000, 128]⟩ .f32 :=
  fun i => max (affine128 X Wt b (i 0) (i 1)) (Ideal.ofBits .f32 0x00000000#32)

theorem linRelu_apply (X : FVec Ideal ⟨2, ![50000, 128]⟩ .f32) (Wt : FVec Ideal ⟨2, ![128, 128]⟩ .f32)
    (b : FVec Ideal ⟨2, ![1, 128]⟩ .f32) (p : Fin 50000) (q : Fin 128) :
    linRelu X Wt b (ix2 p q) = max (affine128 X Wt b p q) (Ideal.ofBits .f32 0x00000000#32) := rfl

/-- A row's largest logit: the fold of max over the 40 columns, from −∞ (the word 0xFF800000). -/
def rowMax (z : Fin 50000 → Fin 40 → EReal) (p : Fin 50000) : EReal :=
  (Finset.univ : Finset (Fin 40)).fold max (Ideal.ofBits .f32 0xFF800000#32) (fun q => z p q)

/-- The log-softmax of a row of logits, shifted by the row's maximum as both programs do. -/
def logSoftmaxRow (z : Fin 50000 → Fin 40 → EReal) (p : Fin 50000) (q : Fin 40) : EReal :=
  (z p q - rowMax z p) - Ideal.log (∑ q' : Fin 40, Ideal.exp (z p q' - rowMax z p))

/-- The second layer's dense part: log-softmax over the columns of X·Wt + b. -/
def linLogSoftmax (X : FVec Ideal ⟨2, ![50000, 128]⟩ .f32) (Wt : FVec Ideal ⟨2, ![128, 40]⟩ .f32)
    (b : FVec Ideal ⟨2, ![1, 40]⟩ .f32) : FVec Ideal ⟨2, ![50000, 40]⟩ .f32 :=
  fun i => logSoftmaxRow (affine40 X Wt b) (i 0) (i 1)

theorem linLogSoftmax_apply (X : FVec Ideal ⟨2, ![50000, 128]⟩ .f32) (Wt : FVec Ideal ⟨2, ![128, 40]⟩ .f32)
    (b : FVec Ideal ⟨2, ![1, 40]⟩ .f32) (p : Fin 50000) (q : Fin 40) :
    linLogSoftmax X Wt b (ix2 p q) = logSoftmaxRow (affine40 X Wt b) p q := rfl

end Cert.Spec

end
-- ==== Proof.Region0.lean ====
/-
  What the first pallas_call leaves in its output array: max(X·Wt + b, 0), entry by entry, of the three arrays its input
  windows stage — whatever the TensorCore's buffers hold when the region is entered.
-/
import proofs.«424046_j57440892616781_1_alg».proof.Proof.Gen.KernelIdeal.Frame
import proofs.«424046_j57440892616781_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen

/-- The arrays the four windows of the first call stand over. -/
theorem arr0 : Pipeline.arrRef spec0 0 = main_v11 := rfl
theorem arr1 : Pipeline.arrRef spec0 1 = main_v12 := rfl
theorem arr2 : Pipeline.arrRef spec0 2 = main_v13 := rfl
theorem arr3 : Pipeline.arrRef spec0 3 = main_v14 := rfl

/-! ## The matrix product's operand indices

  The kernel's one matrix product contracts axis 1 of the left operand with axis 0 of the right one: at output index
  (p, q) and contraction index k the left operand is read at (p, k) and the right one at (k, q). -/

private theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product into the zero accumulator, entry (p, q): the sum over k of left (p, k) times right (k, q). -/
private theorem mm_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The bias row broadcast down the rows, entry (p, q): the row's entry q. -/
private theorem bias_apply (b : FVec Ideal S1x128 .f32) (p : Fin 5000) (q : Fin 128) :
    broadcastTo S5000x128 b broadcasts_S1x128_S5000x128 (ix2 p q) = b (ix2 (0 : Fin 1) q) := by
  refine broadcastTo_apply b broadcasts_S1x128_S5000x128 (ix2 p q) (ix2 (0 : Fin 1) q) (fun a => ?_)
  match a with
  | ⟨0, _⟩ => rfl
  | ⟨1, _⟩ => rfl

/-- THE BODY'S VALUE at entry (p, q) of its block: max(Σₖ x0[p,k]·x1[k,q] + x2[0,q], 0). The two truncations to bf16 are
    the identity on extended reals, and the two same-shape casts change nothing. -/
private theorem pay_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = max ((∑ k : Fin 128, x0 (ix2 p k) * x1 (ix2 k q)) + x2 (ix2 (0 : Fin 1) q)) (Ideal.ofBits .f32 0x00000000#32) := by
  unfold k0_pay1
  rw [maximumf_apply, addf_apply, broadcast_apply, mm_apply, bias_apply]
  simp only [shapeCast_self, truncf_apply]
  rfl

/-! ## Blocks

  Point t of the ten-point grid stages rows 5000·t … 5000·t + 4999 of the left operand, the whole right operand and the
  whole bias row, and writes rows 5000·t … 5000·t + 4999 of the result back. -/

private theorem hz : (![0, 0] : Fin 2 → Nat) = fun _ => 0 := funext fun a => by fin_cases a <;> rfl

/-- The four index maps, decided over the ten points: the row-block index is the point's number for the left operand
    and for the result, and every other block index is zero. -/
private theorem blk_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b)) (c : Dev nD)

/-- The left operand's block at point t, entry (p, k), is the array's entry (5000·t + p, k). -/
private theorem lhs_blk_apply (t : Fin cfg0.N) (p : Fin 5000) (k : Fin 128) (P : Fin 50000) (hP : P.val = 5000 * t.val + p.val) :
    (iblk0 (F := Ideal) V c 0 t : Vec Ideal S5000x128 .f32) (ix2 p k)
      = (V c (Pipeline.arrRef spec0 0) : FVec Ideal S50000x128 .f32) (ix2 P k) := by
  obtain ⟨e0, e1, -⟩ := blk_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

/-- The right operand's block at any point is the whole array. -/
private theorem rhs_blk_apply (t : Fin cfg0.N) (k : Fin 128) (q : Fin 128) :
    (iblk0 (F := Ideal) V c 1 t : Vec Ideal S128x128 .f32) (ix2 k q)
      = (V c (Pipeline.arrRef spec0 1) : FVec Ideal S128x128 .f32) (ix2 k q) := by
  obtain ⟨-, -, e2, e3, -⟩ := blk_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias row's block at any point is the whole row. -/
private theorem bias_blk_apply (t : Fin cfg0.N) (r : Fin 1) (q : Fin 128) :
    (iblk0 (F := Ideal) V c 2 t : Vec Ideal S1x128 .f32) (ix2 r q)
      = (V c (Pipeline.arrRef spec0 2) : FVec Ideal S1x128 .f32) (ix2 r q) := by
  obtain ⟨-, -, -, -, e4, e5, -⟩ := blk_facts t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * r.val = r.val; rw [e4]; omega
  | ⟨1, _⟩ => show win0_2.index t (1 : Fin 2) * 128 + 1 * q.val = q.val; rw [e5]; omega

/-- Entry (p, q) of the result's block at point t sits at (5000·t + p, q) of the array. -/
private theorem out_blk_emb (t : Fin cfg0.N) (p : Fin 5000) (q : Fin 128) (P : Fin 50000) (hP : P.val = 5000 * t.val + p.val) :
    ((cfg0.win 3).blk t).view.emb (ix2 p q) = (ix2 P q : S50000x128.Idx) := by
  obtain ⟨-, -, -, -, -, -, e6, e7⟩ := blk_facts t
  funext a
  apply Fin.ext
  match a with
  | ⟨0, _⟩ => show win0_3.index t (0 : Fin 2) * 5000 + 1 * p.val = P.val; rw [e6, hP]; omega
  | ⟨1, _⟩ => show win0_3.index t (1 : Fin 2) * 128 + 1 * q.val = q.val; rw [e7]; omega

end

section
variable (V : (c : Dev nD) → (b : Ref sig .tc) → Buf (Elt Ideal) ((c : Thread nD τ).loc b)) (c : Dev nD)

/-- WHAT POINT t WRITES BACK is block t of max(X·Wt + b, 0) of the three arrays as the region finds them: the body's
    value at (p, q) reads row 5000·t + p of the left operand, and that is the row the block's entry sits at. -/
private theorem flushed_eq (t : Fin cfg0.N) :
    (dat0 (F := Ideal) V c).flushed 3 t
      = ((cfg0.win 3).blk t).view.read (Elt Ideal)
          (Spec.linRelu (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  have ht : t.val < 10 := by have h := t.isLt; have hN : cfg0.N = 10 := N_0; omega
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Spec.linRelu _ _ _ (((cfg0.win 3).blk t).view.emb (ix2 p q))
  rw [pay_apply, out_blk_emb t p q ⟨5000 * t.val + p.val, by omega⟩ rfl, Spec.linRelu_apply]
  unfold Spec.affine128
  rw [bias_blk_apply]
  refine congrArg (fun s => max (s + _) _) (Finset.sum_congr rfl fun k _ => ?_)
  rw [lhs_blk_apply V c t p k ⟨5000 * t.val + p.val, by omega⟩ rfl, rhs_blk_apply]

end

/-- An index of the result array is in point t's block iff each coordinate is in the block's range on its axis. -/
private theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- The ten row blocks tile the array: row r is in the block of point r / 5000. -/
private theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, e6, e7⟩ := blk_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e6, ht]; omega
  | ⟨1, _⟩ =>
    show win0_3.index t (1 : Fin 2) * 128 ≤ (i 1).val ∧ (i 1).val < win0_3.index t (1 : Fin 2) * 128 + 128
    rw [e7]; omega

/-- After the last grid point the output array of the first call is `Spec.linRelu` of the three input arrays as the
    region found them. -/
theorem final0 (V : (c : Dev nD) → (b : Ref sig .tc) → Buf (Elt Ideal) ((c : Thread nD τ).loc b)) (c : Dev nD) :
    (dat0 (F := Ideal) V c).arrAt 3 cfg0.N
      = Spec.linRelu (V c (Pipeline.arrRef spec0 0)) (V c (Pipeline.arrRef spec0 1)) (V c (Pipeline.arrRef spec0 2)) :=
  (dat0 (F := Ideal) V c).arrAt_eq_of_cover 3
    (Spec.linRelu (V c (Pipeline.arrRef spec0 0)) (V c (Pipeline.arrRef spec0 1)) (V c (Pipeline.arrRef spec0 2)))
    (fun t _ => flushed_eq V c t) cover

end Cert.KernelIdeal.Region0

end
-- ==== Proof.Region1.lean ====
/-
  What the second pallas_call leaves in its output array: the log-softmax over the 40 columns of X·Wt + b, entry by entry,
  of the three arrays its input windows stage — whatever the TensorCore's buffers hold when the region is entered.
-/
import proofs.«424046_j57440892616781_1_alg».proof.Proof.Gen.KernelIdeal.Frame
import proofs.«424046_j57440892616781_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Cert.KernelIdeal Cert.KernelIdeal.Gen

/-- The arrays the four windows of the second call stand over. -/
theorem arr0 : Pipeline.arrRef spec1 0 = main_v26 := rfl
theorem arr1 : Pipeline.arrRef spec1 1 = main_v27 := rfl
theorem arr2 : Pipeline.arrRef spec1 2 = main_v28 := rfl
theorem arr3 : Pipeline.arrRef spec1 3 = main_v29 := rfl

/-! ## The body's value at an entry of its block

Every operation of the body that is not entry-by-entry is read here at an entry (p, q) of the block (or at a row p),
over variables of the literal shapes. -/

/-! ### The matrix product: the contraction runs over the one shared axis of 128 -/

/-- The left operand is read on its row axis at the result's row … -/
theorem lhs_mm_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- … and on its column axis at the contraction's coordinate. -/
theorem lhs_mm_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- The right operand is read on its row axis at the contraction's coordinate … -/
theorem rhs_mm_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
/-- … and on its column axis at the result's column. -/
theorem rhs_mm_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product into a zero accumulator, at entry (p, q): the sum over k of row p of the left operand times
    column q of the right one. -/
theorem matmul_entry {φ₁ φ₂ : FTy} (a : FVec Ideal S5000x128 φ₁) (b : FVec Ideal S128x40 φ₂) (p : Fin 5000) (q : Fin 40) :
    matmul dot_S5000x128_S128x40_S5000x40_1_0_0_1_n_n none a b (constant (F := Ideal) S5000x40 .f32 0x00000000#32) (ix2 p q)
      = ∑ k : Fin 128, a (ix2 p k) * b (ix2 k q) := by
  show FloatOps.matmul dot_S5000x128_S128x40_S5000x40_1_0_0_1_n_n none a b (constant (F := Ideal) S5000x40 .f32 0x00000000#32) (ix2 p q) = _
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 p q) ((ValueIdx.contrEquiv1 dot_S5000x128_S128x40_S5000x40_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x40_S5000x40_1_0_0_1_n_n.rhsIdx (ix2 p q) ((ValueIdx.contrEquiv1 dot_S5000x128_S128x40_S5000x40_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ### The keepdims column: a vector of row values laid out as one column, then spread along the rows -/

/-- A vector of 5000 row values cast to one column reads, at row p, the vector's entry p. -/
theorem castCol_entry {α : Type} (r : S5000.Idx → α) (h : S5000.ShapeCasts S5000x1) (p : Fin 5000) (u : Fin 1) :
    shapeCast S5000x1 r h (ix2 p u) = r (ix1 p) :=
  shapeCast_apply r h _ _ (by
    have hu : u.val = 0 := by omega
    rw [Shape.rowMajor_val_two, Shape.rowMajor_val_one]
    show p.val = p.val * 1 + u.val
    rw [hu, Nat.mul_one, Nat.add_zero])

/-- One column broadcast over the 40 columns reads, at (p, q), the column's entry of row p. -/
theorem bcastCol_entry {α : Type} (v : S5000x1.Idx → α) (h : S5000x1.Broadcasts S5000x40) (p : Fin 5000) (q : Fin 40) :
    broadcastTo S5000x40 v h (ix2 p q) = v (ix2 p (0 : Fin 1)) := by
  refine broadcastTo_apply v h (ix2 p q) (ix2 p (0 : Fin 1)) fun ax => ?_
  match ax with
  | ⟨0, _⟩ =>
    show p.val = if (5000 : ℕ) = 1 then 0 else p.val
    rw [if_neg (by decide)]
  | ⟨1, _⟩ => rfl

/-! ### The two reductions along a row -/

/-- The row maximum: the fold of max over the 40 entries of row p, from the accumulator's value. -/
theorem rowMax_entry (z : FVec Ideal S5000x40 .f32) (h : S5000x40.Reduces [1] S5000) (hφ : FKind.Formats .f32)
    (hacc : (0xFF800000#32 : BitVec 32) = FKind.maximumf.neutral .f32 hφ) (p : Fin 5000) :
    multiReduction (F := Ideal) .maximumf [1] S5000 z 0xFF800000#32 h hφ hacc (ix1 p)
      = (Finset.univ : Finset (Fin 40)).fold max (Ideal.ofBits .f32 0xFF800000#32) (fun q => z (ix2 p q)) := by
  refine (Ideal.multiReduction_maximumf_single z 0xFF800000#32 h hφ hacc (ix1 p)).trans ?_
  have e : (z ∘ h.lift (ix1 p)) = fun q : Fin 40 => z (ix2 p q) := funext fun k => congrArg z (funext fun a => Fin.ext (by
    match a with
    | ⟨0, _⟩ => rfl
    | ⟨1, _⟩ => rfl))
  rw [e]
  rfl

/-- The row sum: the sum of the 40 entries of row p. -/
theorem rowSum_entry (e : FVec Ideal S5000x40 .f32) (h : S5000x40.Reduces [1] S5000) (hφ : FKind.Formats .f32)
    (hacc : (0x00000000#32 : BitVec 32) = FKind.add.neutral .f32 hφ) (p : Fin 5000) :
    multiReduction (F := Ideal) .add [1] S5000 e 0x00000000#32 h hφ hacc (ix1 p) = ∑ q : Fin 40, e (ix2 p q) := by
  refine (Ideal.multiReduction_add_single e 0x00000000#32 h hφ hacc (ix1 p)).trans ?_
  refine Finset.sum_congr rfl fun k _ => congrArg e (funext fun a => Fin.ext (by
    match a with
    | ⟨0, _⟩ => rfl
    | ⟨1, _⟩ => rfl))

/-! ### The body's value -/

/-- The logits of the block, X·Wt + b with the bias row spread down the rows, at entry (p, q). The narrowing of the
    operands before the product changes no value at the ideal reading, and a cast to the same shape is the identity. -/
theorem logits_entry (x0 : Vec Ideal S5000x128 .f32) (x1 : Vec Ideal S128x40 .f32) (x2 : Vec Ideal S1x40 .f32)
    (h0 : S5000x128.ShapeCasts S5000x128) (h1 : S128x40.ShapeCasts S128x40) (h2 : S1x40.ShapeCasts S1x40)
    (hlt : FTy.bits .bf16 < FTy.bits .f32) (hb : S1x40.Broadcasts S5000x40) (p : Fin 5000) (q : Fin 40) :
    addf (matmul dot_S5000x128_S128x40_S5000x40_1_0_0_1_n_n none
            (truncf (F := Ideal) .bf16 (shapeCast S5000x128 x0 h0) hlt) (truncf (F := Ideal) .bf16 (shapeCast S128x40 x1 h1) hlt)
            (constant (F := Ideal) S5000x40 .f32 0x00000000#32))
         (broadcastTo S5000x40 (shapeCast S1x40 x2 h2) hb) (ix2 p q)
      = (∑ k : Fin 128, x0 (ix2 p k) * x1 (ix2 k q)) + x2 (ix2 (0 : Fin 1) q) := by
  rw [addf_apply, matmul_entry, broadcastTo_1b_ab_apply, shapeCast_self, shapeCast_self, shapeCast_self]
  rfl

/-- The exponential of a block, at an entry. -/
theorem vexp_apply {s : Shape} {φ : FTy} (x : FVec Ideal s φ) (i : s.Idx) : exp x i = Ideal.exp (x i) := rfl
/-- The logarithm of a block, at an entry. -/
theorem vlog_apply {s : Shape} {φ : FTy} (x : FVec Ideal s φ) (i : s.Idx) : log x i = Ideal.log (x i) := rfl

/-- The log-softmax of a block of logits z along its rows, as the body computes it, at entry (p, q): the logit less
    the row's maximum, less the logarithm of the row's sum of exponentials of the logits so shifted. -/
theorem logSoftmax_entry (z : FVec Ideal S5000x40 .f32) (hr : S5000x40.Reduces [1] S5000) (hc : S5000.ShapeCasts S5000x1)
    (hb : S5000x1.Broadcasts S5000x40) (hφ : FKind.Formats .f32)
    (hmax : (0xFF800000#32 : BitVec 32) = FKind.maximumf.neutral .f32 hφ)
    (hadd : (0x00000000#32 : BitVec 32) = FKind.add.neutral .f32 hφ) (p : Fin 5000) (q : Fin 40) :
    subf (subf z (broadcastTo S5000x40 (shapeCast S5000x1 (multiReduction (F := Ideal) .maximumf [1] S5000 z 0xFF800000#32 hr hφ hmax) hc) hb))
         (broadcastTo S5000x40
            (log (shapeCast S5000x1
              (multiReduction (F := Ideal) .add [1] S5000
                (exp (subf z (broadcastTo S5000x40 (shapeCast S5000x1 (multiReduction (F := Ideal) .maximumf [1] S5000 z 0xFF800000#32 hr hφ hmax) hc) hb)))
                0x00000000#32 hr hφ hadd) hc)) hb) (ix2 p q)
      = (z (ix2 p q) - (Finset.univ : Finset (Fin 40)).fold max (Ideal.ofBits .f32 0xFF800000#32) (fun q' => z (ix2 p q')))
          - Ideal.log (∑ q' : Fin 40, Ideal.exp (z (ix2 p q')
              - (Finset.univ : Finset (Fin 40)).fold max (Ideal.ofBits .f32 0xFF800000#32) (fun q'' => z (ix2 p q'')))) := by
  -- the shift at any entry of row p is the row's maximum
  have hM : ∀ q' : Fin 40,
      broadcastTo S5000x40 (shapeCast S5000x1 (multiReduction (F := Ideal) .maximumf [1] S5000 z 0xFF800000#32 hr hφ hmax) hc) hb (ix2 p q')
        = (Finset.univ : Finset (Fin 40)).fold max (Ideal.ofBits .f32 0xFF800000#32) (fun q'' => z (ix2 p q'')) := fun q' => by
    rw [bcastCol_entry, castCol_entry, rowMax_entry]
  rw [subf_apply, subf_apply, hM, bcastCol_entry, vlog_apply, castCol_entry, rowSum_entry]
  simp only [vexp_apply, subf_apply, hM]

/-- The body's stored value at entry (p, q) of the block, from the three blocks it loads. -/
theorem pay_entry (x0 : Vec Ideal S5000x128 .f32) (x1 : Vec Ideal S128x40 .f32) (x2 : Vec Ideal S1x40 .f32) (p : Fin 5000) (q : Fin 40) :
    k1_pay1 (F := Ideal) x0 x1 x2 (ix2 p q)
      = (((∑ k : Fin 128, x0 (ix2 p k) * x1 (ix2 k q)) + x2 (ix2 (0 : Fin 1) q))
            - (Finset.univ : Finset (Fin 40)).fold max (Ideal.ofBits .f32 0xFF800000#32)
                (fun q' => (∑ k : Fin 128, x0 (ix2 p k) * x1 (ix2 k q')) + x2 (ix2 (0 : Fin 1) q')))
          - Ideal.log (∑ q' : Fin 40, Ideal.exp (((∑ k : Fin 128, x0 (ix2 p k) * x1 (ix2 k q')) + x2 (ix2 (0 : Fin 1) q'))
              - (Finset.univ : Finset (Fin 40)).fold max (Ideal.ofBits .f32 0xFF800000#32)
                  (fun q'' => (∑ k : Fin 128, x0 (ix2 p k) * x1 (ix2 k q'')) + x2 (ix2 (0 : Fin 1) q'')))) := by
  unfold k1_pay1
  refine (logSoftmax_entry _ _ _ _ _ _ _ p q).trans ?_
  simp only [logits_entry]

/-! ## From the blocks to the array

Grid point t works on rows 5000 t … 5000 t + 4999: the first operand's window and the output's move together down the
rows, the weight matrix and the bias row are staged whole. -/

/-- The offsets of an access to a whole staging buffer are zero on both axes. -/
theorem hz : (![0, 0] : Fin 2 → Nat) = fun _ => 0 := funext fun a => by fin_cases a <;> rfl

/-- The four windows' index maps over the ten grid points: the row-block index of the first operand and of the
    output is the point's number, every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the block of grid point t is row 5000 t + p of the array. -/
def gRow (t : Fin cfg1.N) (p : Fin 5000) : Fin 50000 :=
  ⟨t.val * 5000 + p.val, by
    have hN : grid1.N = 10 := N_1
    have ht : t.val < grid1.N := t.isLt
    have hp : p.val < 5000 := p.isLt
    omega⟩

theorem gRow_val (t : Fin cfg1.N) (p : Fin 5000) : (gRow t p).val = t.val * 5000 + p.val := rfl

section Blocks
variable (V : (c : Dev nD) → (b : Ref sig .tc) → Buf (Elt Ideal) ((c : Thread nD τ).loc b)) (c : Dev nD) (t : Fin cfg1.N)

/-- The first operand's block at (p, k) is the array at (5000 t + p, k). -/
theorem x0_read (p : Fin 5000) (k : Fin 128) :
    iblk1 (F := Ideal) V c 0 t (ix2 p k) = V c (Pipeline.arrRef spec1 0) (ix2 (gRow t p) k) := by
  show V c (Pipeline.arrRef spec1 0) (((cfg1.win 0).blk t).view.emb (ix2 p k)) = V c (Pipeline.arrRef spec1 0) (ix2 (gRow t p) k)
  obtain ⟨e0, e1, -⟩ := idx_facts t
  refine congrArg (V c (Pipeline.arrRef spec1 0)) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The weight matrix is staged whole. -/
theorem x1_read (k : Fin 128) (q : Fin 40) :
    iblk1 (F := Ideal) V c 1 t (ix2 k q) = V c (Pipeline.arrRef spec1 1) (ix2 k q) := by
  show V c (Pipeline.arrRef spec1 1) (((cfg1.win 1).blk t).view.emb (ix2 k q)) = V c (Pipeline.arrRef spec1 1) (ix2 k q)
  obtain ⟨-, -, e0, e1, -⟩ := idx_facts t
  refine congrArg (V c (Pipeline.arrRef spec1 1)) (funext fun a => Fin.ext ?_)
  match a with
  | ⟨0, _⟩ => show win1_1.index t (0 : Fin 2) * 128 + 1 * k.val = k.val; omega
  | ⟨1, _⟩ => show win1_1.index t (1 : Fin 2) * 40 + 1 * q.val = q.val; omega

/-- The bias row is staged whole. -/
theorem x2_read (u : Fin 1) (q : Fin 40) :
    iblk1 (F := Ideal) V c 2 t (ix2 u q) = V c (Pipeline.arrRef spec1 2) (ix2 u q) := by
  show V c (Pipeline.arrRef spec1 2) (((cfg1.win 2).blk t).view.emb (ix2 u q)) = V c (Pipeline.arrRef spec1 2) (ix2 u q)
  obtain ⟨-, -, -, -, e0, e1, -⟩ := idx_facts t
  refine congrArg (V c (Pipeline.arrRef spec1 2)) (funext fun a => Fin.ext ?_)
  match a with
  | ⟨0, _⟩ => show win1_2.index t (0 : Fin 2) * 1 + 1 * u.val = u.val; omega
  | ⟨1, _⟩ => show win1_2.index t (1 : Fin 2) * 40 + 1 * q.val = q.val; omega

/-- Entry (p, q) of the output's block is entry (5000 t + p, q) of the array. -/
theorem out_idx (p : Fin 5000) (q : Fin 40) :
    ((cfg1.win 3).blk t).view.emb (ix2 p q) = ix2 (gRow t p) q := by
  obtain ⟨-, -, -, -, -, -, e0, e1⟩ := idx_facts t
  refine funext fun a => Fin.ext ?_
  match a with
  | ⟨0, _⟩ => show win1_3.index t (0 : Fin 2) * 5000 + 1 * p.val = t.val * 5000 + p.val; omega
  | ⟨1, _⟩ => show win1_3.index t (1 : Fin 2) * 40 + 1 * q.val = q.val; omega

/-- What grid point t writes back is block t of the log-softmax of X·Wt + b: every quantity of a row of the block
    is computed from that row of the first operand alone. -/
theorem flushed_eq :
    (dat1 (F := Ideal) V c).flushed 3 t
      = ((cfg1.win 3).blk t).view.read (Elt Ideal)
          (Spec.linLogSoftmax (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S128x40) hz, View.ld_unit_zero (S := S1x40) hz]
  funext j
  obtain ⟨p, q, rfl⟩ : ∃ (p : Fin 5000) (q : Fin 40), j = ix2 p q := ⟨j 0, j 1, eq_ix2 j⟩
  show k1_pay1 (F := Ideal) (iblk1 V c 0 t) (iblk1 V c 1 t) (iblk1 V c 2 t) (ix2 p q)
    = Spec.linLogSoftmax (V c (Pipeline.arrRef spec1 0)) (V c (Pipeline.arrRef spec1 1)) (V c (Pipeline.arrRef spec1 2))
        (((cfg1.win 3).blk t).view.emb (ix2 p q))
  rw [pay_entry, out_idx, Spec.linLogSoftmax_apply]
  simp only [x0_read, x1_read, x2_read]
  rfl

end Blocks

/-- An index of the array is in point t's block iff each coordinate is in the block's range on its axis. -/
theorem mem_blk (t : Fin cfg1.N) (i : S50000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v29).slice (win1_3.rect t)).set ↔ _
  rw [View.set_slice_whole, Rect.mem_set_unit]
  exact Iff.rfl

/-- The ten blocks tile the array: row r lies in the block of point r / 5000. -/
theorem cover (i : S50000x40.Idx) : ∃ t : Fin cfg1.N, (cfg1.win 3).flush t = true ∧ i ∈ ((cfg1.win 3).blk t).view.set := by
  have hi0 : (i 0).val < 50000 := (i 0).isLt
  have hi1 : (i 1).val < 40 := (i 1).isLt
  have hN : grid1.N = 10 := N_1
  have hlt : (i 0).val / 5000 < grid1.N := by omega
  obtain ⟨-, -, -, -, -, -, e0, e1⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, hlt⟩ (1 : Fin 2) * 40 ≤ (i 1).val ∧ (i 1).val < win1_3.index ⟨(i 0).val / 5000, hlt⟩ (1 : Fin 2) * 40 + 40
    rw [e1]
    omega

/-- After the last grid point the output array of the second call is `Spec.linLogSoftmax` of the three input arrays as the
    region found them. -/
theorem final1 (V : (c : Dev nD) → (b : Ref sig .tc) → Buf (Elt Ideal) ((c : Thread nD τ).loc b)) (c : Dev nD) :
    (dat1 (F := Ideal) V c).arrAt 3 cfg1.N
      = Spec.linLogSoftmax (V c (Pipeline.arrRef spec1 0)) (V c (Pipeline.arrRef spec1 1)) (V c (Pipeline.arrRef spec1 2)) := by
  exact (dat1 (F := Ideal) V c).arrAt_eq_of_cover 3 _ (fun t _ => flushed_eq V c t) cover

end Cert.KernelIdeal.Region1

end
-- ==== Proof.Take.lean ====
/-
  The row gather of the sparse product, and the range of its indices.

  The kernel's program gathers rows with an out-of-range FILL: after a negative index is shifted by the number of rows
  (50000), a row whose shifted index lies outside 0 … 49999 is replaced by a constant row. The reference gathers with
  the same shifted index and no fill. Where every index c satisfies −50000 ≤ c < 50000 the shifted index is in range,
  the fill never happens, and the two gathers are one array. The precondition says exactly that of the second row of
  the edge list.
-/
import proofs.«424046_j57440892616781_1_alg».proof.Proof.Gen.KernelIdeal
import proofs.«424046_j57440892616781_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.KernelIdeal.Take

open Idealize.ShloMosaic Idealize.ShloMosaic.ValueIdx
open Cert.KernelIdeal Cert.KernelIdeal.Facts₀ Cert.KernelIdeal.Facts

variable {F : FTy → Type} [FloatOps F]

/-- The second row of the edge list: the node each edge reads from. -/
def colOf (ei : IVec S2x800000 32) : IVec S800000 32 :=
  shapeCast S800000 (extractStridedSlice S1x800000 ![1, 0] ei slices_S2x800000_S1x800000_1_0) shapeCasts_S1x800000_S800000

/-- The first row of the edge list: the node each edge adds into. -/
def rowOf (ei : IVec S2x800000 32) : IVec S800000 32 :=
  shapeCast S800000 (extractStridedSlice S1x800000 ![0, 0] ei slices_S2x800000_S1x800000_0_0) shapeCasts_S1x800000_S800000

/-- The index a row gather is read at, as a column: a negative index shifted by the number of rows. -/
def normIdx (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- Which edges' shifted index lies in 0 … 49999 (one bit per edge). -/
def inRange (col : IVec S800000 32) : IVec S800000 1 :=
  (fun x v => Host.reduce IntOp.andi x v reducesTo_S800000x1_S800000_d1 h_S_)
    (andi (cmpi .sge (normIdx col) (broadcastInDim S800000x1 ![] bcast_S_S800000x1 (constantI S_ 32 0#32)))
      (cmpi .sle (normIdx col) (broadcastInDim S800000x1 ![0, 1] bcast_S1x1_S800000x1_0_1
        (broadcastInDim S1x1 ![1] bcast_S1_S1x1_1 (constantI S1 32 49999#32)))))
    (constantI S_ 1 1#1)

/-- The plain row gather at the shifted indices. -/
def gatherRows (h : FVec F S50000x128 .f32) (col : IVec S800000 32) : FVec F S800000x128 .f32 :=
  Host.gather gather_S50000x128_S800000x1_S800000x128_1_0_n_n_0_1_1128 h (normIdx col)

/-- The row gather with the out-of-range fill: a row whose shifted index is out of range is the constant row. -/
def takeFill (h : FVec F S50000x128 .f32) (col : IVec S800000 32) : FVec F S800000x128 .f32 :=
  select (broadcastInDim S800000x128 ![0] bcast_S800000_S800000x128_0 (inRange col))
    (gatherRows h col)
    (broadcastInDim S800000x128 ![] bcast_S_S800000x128 (constant S_ .f32 0x7FC00000#32))

/-- A left fold by `and`, started at 1, over one-bit words that are all 1 stays 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a List.mem_cons_self, h11]
    exact foldl_andi_one f l (fun n hn => h n (List.mem_cons_of_mem _ hn))

/-- The shifted index of a word c: c + 50000 when c is negative (read signed), else c. -/
private def shiftWord (c : BitVec 32) : BitVec 32 :=
  Scalar.select (IntOp.cmpi .slt c 0#32) (IntOp.addi c 50000#32) c

/-- For −50000 ≤ c < 50000 the shifted index lies in 0 … 49999: the sum c + 50000 of a negative c does not wrap. -/
private theorem shiftWord_inRange (c : BitVec 32) (h1 : -50000 ≤ c.toInt) (h2 : c.toInt < 50000) :
    IntOp.andi (IntOp.cmpi .sge (shiftWord c) 0#32) (IntOp.cmpi .sle (shiftWord c) 49999#32) = 1#1 := by
  have z0 : (0#32 : BitVec 32).toInt = 0 := by decide
  have z1 : (49999#32 : BitVec 32).toInt = 49999 := by decide
  have z2 : (50000#32 : BitVec 32).toInt = 50000 := by decide
  have hs : 0 ≤ (shiftWord c).toInt ∧ (shiftWord c).toInt ≤ 49999 := by
    unfold shiftWord
    by_cases hc : c.toInt < 0
    · have hb : IntOp.cmpi .slt c 0#32 = 1#1 := IntOp.cmpi_slt.2 (by rw [z0]; exact hc)
      rw [hb, select_one]
      have : (IntOp.addi c 50000#32).toInt = c.toInt + 50000 := by
        rw [IntOp.addi, BitVec.toInt_add, z2]
        exact Int.bmod_eq_of_le (by omega) (by omega)
      omega
    · have hb : ¬ IntOp.cmpi .slt c 0#32 = 1#1 := fun hb => hc (by have := IntOp.cmpi_slt.1 hb; rwa [z0] at this)
      rw [eq_zero_of_ne_one hb, select_zero]
      omega
  exact IntOp.andi_eq_one.2 ⟨IntOp.cmpi_sge.2 (by rw [z0]; exact hs.1), IntOp.cmpi_sle.2 (by rw [z1]; exact hs.2)⟩

/-- The shifted-index column read at a row is the shifted word of one entry of the index vector (the two broadcasts
    and the elementwise select read through). -/
private theorem normIdx_apply (col : IVec S800000 32) (i : S800000x1.Idx) :
    ∃ k : S800000.Idx, normIdx col i = shiftWord (col k) := ⟨_, rfl⟩

/-- Where every index is in −50000 … 49999 every edge's range bit is 1: the and-reduction over the unit axis folds,
    from 1, words that are all 1. -/
private theorem inRange_one (col : IVec S800000 32)
    (hcol : ∀ e : S800000.Idx, -50000 ≤ (col e).toInt ∧ (col e).toInt < 50000) (e : S800000.Idx) :
    inRange col e = 1#1 := by
  unfold inRange
  show Host.reduce IntOp.andi _ _ reducesTo_S800000x1_S800000_d1 h_S_ e = 1#1
  rw [Host.reduce_eq_foldl]
  refine foldl_andi_one _ _ (fun i _ => ?_)
  obtain ⟨k, hk⟩ := normIdx_apply col i
  show IntOp.andi (IntOp.cmpi .sge (normIdx col i) 0#32) (IntOp.cmpi .sle (normIdx col i) 49999#32) = 1#1
  rw [hk]
  exact shiftWord_inRange (col k) (hcol k).1 (hcol k).2

/-- Where every index c has −50000 ≤ c < 50000 the fill never happens. -/
theorem takeFill_eq_gatherRows (h : FVec F S50000x128 .f32) (col : IVec S800000 32)
    (hcol : ∀ e : S800000.Idx, -50000 ≤ (col e).toInt ∧ (col e).toInt < 50000) :
    takeFill h col = gatherRows h col := by
  funext y
  unfold takeFill
  rw [select_apply]
  have hb : broadcastInDim S800000x128 ![0] bcast_S800000_S800000x128_0 (inRange col) y = 1#1 :=
    inRange_one col hcol _
  rw [hb, select_one]

/-- The precondition gives every entry c of the edge list's second row −50000 ≤ c < 50000. -/
theorem col_range_of_pre (a0 : FVec F Cert.Pre_finite_inputs.S50000x128 .f32) (ei : IVec S2x800000 32)
    (a2 : FVec F Cert.Pre_finite_inputs.S800000 .f32) (a3 : FVec F Cert.Pre_finite_inputs.S128x128 .f32)
    (a4 : FVec F Cert.Pre_finite_inputs.S128 .f32) (a5 : FVec F Cert.Pre_finite_inputs.S40x128 .f32)
    (a6 : FVec F Cert.Pre_finite_inputs.S40 .f32)
    (hpre : Cert.Pre_finite_inputs.fn (F := F) a0 ei a2 a3 a4 a5 a6 = fun _ => 1#1) :
    ∀ e : S800000.Idx, -50000 ≤ (colOf ei e).toInt ∧ (colOf ei e).toInt < 50000 := by
  intro e
  have zm : (4294917296#32 : BitVec 32).toInt = -50000 := by decide
  have zp : (50000#32 : BitVec 32).toInt = 50000 := by decide
  -- the precondition is a conjunction of one-bit words; its last conjunct is the and-reduction, over every
  -- entry, of (c ≥ −50000) ∧ (c < 50000) for c the second row of the edge list
  have h0 := congrFun hpre ValueIdx.ix0
  dsimp only [Cert.Pre_finite_inputs.fn, Cert.Pre_finite_inputs.fn_part1, Cert.Pre_finite_inputs.fn_part2] at h0
  have h1 := (IntOp.andi_eq_one.1 h0).2
  haveI : Subsingleton Cert.Pre_finite_inputs.S_.Idx := ⟨fun a b => funext fun d => d.elim0⟩
  -- a reduction by `and` to a scalar that is 1 met a 1 at every entry
  have h2 := Host.reduce_andi_all _ _ _ _ _ h1 e
  obtain ⟨h3, h4⟩ := IntOp.andi_eq_one.1 h2
  -- the two signed comparisons, read as inequalities of the words' signed values; the broadcast constants read
  -- through, and the sliced and reshaped row is `colOf ei`
  have h5 := IntOp.cmpi_sge.1 h3
  have h6 := IntOp.cmpi_slt.1 h4
  change (4294917296#32 : BitVec 32).toInt ≤ (colOf ei e).toInt at h5
  change (colOf ei e).toInt < (50000#32 : BitVec 32).toInt at h6
  rw [zm] at h5
  rw [zp] at h6
  exact ⟨h5, h6⟩

end Cert.KernelIdeal.Take

end
-- ==== Proof.Agg.lean ====
/-
  One graph aggregation, h ↦ h + A·h, as both programs compute it on the host.

  A·h gathers row col[e] of h for every edge e, scales it by the edge's weight, and adds it into row row[e]: a row
  gather, a product with the weights broadcast along the rows, and a scatter-add into zeros. The two programs run the
  same operations on the same operands; the only difference is the gather — the kernel's program fills rows whose index
  is out of range with a constant, the reference does not — and under the precondition's index range the two gathers
  are one array (`Take.takeFill_eq_gatherRows`). The scatter-add is never opened.
-/
import proofs.«424046_j57440892616781_1_alg».proof.Proof.Take

noncomputable section

namespace Cert.KernelIdeal.Agg

open Idealize.ShloMosaic
open Cert.KernelIdeal Cert.KernelIdeal.Facts₀ Cert.KernelIdeal.Facts Cert.KernelIdeal.Take

variable {F : FTy → Type} [FloatOps F]

/-- The gathered rows `g`, scaled edge by edge and added into the rows the edge list's first row names. -/
def scatterScaled (g : FVec F S800000x128 .f32) (ei : IVec S2x800000 32) (attr : FVec F S800000 .f32) : FVec F S50000x128 .f32 :=
  (fun x i u => Host.scatterAdd scatter_S50000x128_S800000x1_S800000x128_1_0_0_1 x i u)
    (broadcastInDim S50000x128 ![] bcast_S_S50000x128 (constant S_ .f32 0x00000000#32))
    (broadcastInDim S800000x1 ![0] bcast_S800000_S800000x1_0 (rowOf ei))
    (mulf (broadcastInDim S800000x128 ![0, 1] bcast_S800000x1_S800000x128_0_1
      (broadcastInDim S800000x1 ![0] bcast_S800000_S800000x1_0 attr)) g)

/-- h + A·h with the filling gather (the kernel's program). -/
def aggFill (h : FVec F S50000x128 .f32) (ei : IVec S2x800000 32) (attr : FVec F S800000 .f32) : FVec F S50000x128 .f32 :=
  addf h (scatterScaled (takeFill h (colOf ei)) ei attr)

/-- h + A·h with the plain gather (the reference). -/
def agg (h : FVec F S50000x128 .f32) (ei : IVec S2x800000 32) (attr : FVec F S800000 .f32) : FVec F S50000x128 .f32 :=
  addf h (scatterScaled (gatherRows h (colOf ei)) ei attr)

/-- Under the index range the two aggregations are one array. -/
theorem aggFill_eq_agg (h : FVec F S50000x128 .f32) (ei : IVec S2x800000 32) (attr : FVec F S800000 .f32)
    (hcol : ∀ e : S800000.Idx, -50000 ≤ (colOf ei e).toInt ∧ (colOf ei e).toInt < 50000) :
    aggFill h ei attr = agg h ei attr := by
  unfold aggFill agg
  rw [takeFill_eq_gatherRows h (colOf ei) hcol]

end Cert.KernelIdeal.Agg

end
-- ==== Proof.KernelHost.lean ====
/-
  What the kernel's program holds in the arrays each pallas_call's input windows stand over, when the call is entered.

  Before the first call the host computes the first aggregation x + A·x (with the filling gather), transposes W1 and
  lays b1 out as a row; between the calls it does the same from the first call's output, W2 and b2. Each array is read
  back through the fold of host operations to the launch contents (and, for the second call, to the first call's
  output array).
-/
import proofs.«424046_j57440892616781_1_alg».proof.Proof.Gen.KernelIdeal.Frame
import proofs.«424046_j57440892616781_1_alg».proof.Proof.Agg
import proofs.«424046_j57440892616781_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostChain

open Idealize.ShloMosaic Idealize.ShloMosaic.TcCoe Idealize.SL.Sem Idealize.ShloMosaic.StableHlo Idealize.ShloMosaic.ValueIdx
open Cert.KernelIdeal Cert.KernelIdeal.Facts₀ Cert.KernelIdeal.Facts Cert.KernelIdeal.Gen

variable {F : FTy → Type} [FloatOps F]
variable (m : (ℓ : Loc nD τ sig) → Buf (Elt F) ℓ) (ρ : Dev nD → PrngReg)

/-! ### The three stretches before the first call, each from ANY contents `W` of the buffers -/

section BeforeFirstCall

variable (W : Valuation τ sig (Elt F))

/-- The first stretch slices the edge list's second row out and flattens it: the node each edge reads from. -/
private theorem ops0_col : StableHlo.after hostOps0 W (Proc.devRef .tc main_v3) = Take.colOf (W (Proc.devRef .tc main_arg1)) := by
  simp only [hostOps0]
  after_results_simp
  rfl

/-- … and the first row likewise: the node each edge adds into. -/
private theorem ops0_row : StableHlo.after hostOps0 W (Proc.devRef .tc main_v1) = Take.rowOf (W (Proc.devRef .tc main_arg1)) := by
  simp only [hostOps0]
  after_results_simp
  rfl

/-- … and lays the edge weights out as a column. -/
private theorem ops0_attr : StableHlo.after hostOps0 W (Proc.devRef .tc main_v4)
    = broadcastInDim S800000x1 ![0] Gen.bcast_S800000_S800000x1_0 (W (Proc.devRef .tc main_arg2)) := by
  simp only [hostOps0]
  after_results_simp

/-- The first stretch leaves the aggregated array alone. -/
private theorem ops0_x : StableHlo.after hostOps0 W (Proc.devRef .tc main_arg0) = W (Proc.devRef .tc main_arg0) := by
  simp only [hostOps0]
  after_results_simp

/-- The take's first eight operations shift the negative indices by the number of rows and lay the result out as a
    column; they leave the gathered-from array alone. -/
private theorem take0_shift :
    StableHlo.after (hostOps0_1.take 8) W (Proc.devRef .tc main_call0_v5) = Take.normIdx (W (Proc.devRef .tc main_v3))
    ∧ StableHlo.after (hostOps0_1.take 8) W (Proc.devRef .tc main_arg0) = W (Proc.devRef .tc main_arg0) := by
  simp only [hostOps0_1, List.take_succ_cons, List.take_zero]
  constructor
  · after_results_simp
    rfl
  · after_results_simp

/-- The next nine compare the index column with 0 and with 49999 and conjoin the two bits of each entry, and write the
    reduction's start value; the index column and the gathered-from array pass through. -/
private theorem take0_mask (n : IVec S800000x1 32) (h5 : W (Proc.devRef .tc main_call0_v5) = n) :
    StableHlo.after ((hostOps0_1.drop 8).take 9) W (Proc.devRef .tc main_call0_v11)
      = andi (cmpi .sge n (broadcastInDim S800000x1 ![] Gen.bcast_S_S800000x1 (constantI S_ 32 0#32)))
          (cmpi .sle n (broadcastInDim S800000x1 ![0, 1] Gen.bcast_S1x1_S800000x1_0_1
            (broadcastInDim S1x1 ![1] Gen.bcast_S1_S1x1_1 (constantI S1 32 49999#32))))
    ∧ StableHlo.after ((hostOps0_1.drop 8).take 9) W (Proc.devRef .tc main_call0_c_3) = constantI S_ 1 1#1
    ∧ StableHlo.after ((hostOps0_1.drop 8).take 9) W (Proc.devRef .tc main_call0_v5) = n
    ∧ StableHlo.after ((hostOps0_1.drop 8).take 9) W (Proc.devRef .tc main_arg0) = W (Proc.devRef .tc main_arg0) := by
  simp only [hostOps0_1, List.drop_succ_cons, List.drop_zero, List.take_succ_cons, List.take_zero]
  refine ⟨?_, ?_, ?_, ?_⟩
  · after_results_simp
    rw [h5]
    rfl
  · after_results_simp
    rfl
  · after_results_simp
    exact h5
  · after_results_simp

/-- The and-reduction over the unit axis, one operation: one range bit per edge. -/
private theorem take0_reduce (a : IVec S800000x1 1) (c3 : IVec S_ 1)
    (h11 : W (Proc.devRef .tc main_call0_v11) = a) (hc : W (Proc.devRef .tc main_call0_c_3) = c3) :
    StableHlo.after ((hostOps0_1.drop 17).take 1) W (Proc.devRef .tc main_call0_v12)
      = Host.reduce IntOp.andi a c3 Gen.reducesTo_S800000x1_S800000_d1 Gen.h_S_
    ∧ StableHlo.after ((hostOps0_1.drop 17).take 1) W (Proc.devRef .tc main_call0_v5) = W (Proc.devRef .tc main_call0_v5)
    ∧ StableHlo.after ((hostOps0_1.drop 17).take 1) W (Proc.devRef .tc main_arg0) = W (Proc.devRef .tc main_arg0) := by
  simp only [hostOps0_1, List.drop_succ_cons, List.drop_zero, List.take_succ_cons, List.take_zero]
  refine ⟨?_, ?_, ?_⟩
  · after_results_simp
    simp only [StableHlo.TRef.ofBuf, StableHlo.TRef.toBuf, cast_eq]
    rw [h11, hc]
  · after_results_simp
  · after_results_simp

/-- The last five operations gather the rows at the index column and replace, by the range bits, the rows whose
    index is out of range with the constant row. -/
private theorem take0_select (h : FVec F S50000x128 .f32) (n : IVec S800000x1 32) (r : IVec S800000 1)
    (hx : W (Proc.devRef .tc main_arg0) = h) (h5 : W (Proc.devRef .tc main_call0_v5) = n)
    (h12 : W (Proc.devRef .tc main_call0_v12) = r) :
    StableHlo.after (hostOps0_1.drop 18) W (Proc.devRef .tc main_v5)
      = select (broadcastInDim S800000x128 ![0] Gen.bcast_S800000_S800000x128_0 r)
          (Host.gather gather_S50000x128_S800000x1_S800000x128_1_0_n_n_0_1_1128 h n)
          (broadcastInDim S800000x128 ![] Gen.bcast_S_S800000x128 (constant S_ .f32 0x7FC00000#32)) := by
  simp only [hostOps0_1, List.drop_succ_cons, List.drop_zero]
  after_results_simp
  rw [hx, h5, h12]
  rfl

/-- The inlined take is the filling row gather of the array it reads, at the index vector it reads: its four pieces
    in order, each reading what the one before wrote. -/
private theorem take0_fill : StableHlo.after hostOps0_1 W (Proc.devRef .tc main_v5)
    = Take.takeFill (W (Proc.devRef .tc main_arg0)) (W (Proc.devRef .tc main_v3)) := by
  have e : (hostOps0_1 : List (HloOp τ sig (Elt F)))
      = hostOps0_1.take 8 ++ ((hostOps0_1.drop 8).take 9 ++ ((hostOps0_1.drop 17).take 1 ++ hostOps0_1.drop 18)) := rfl
  rw [e, StableHlo.after_append, StableHlo.after_append, StableHlo.after_append]
  obtain ⟨a5, a0⟩ := take0_shift W
  obtain ⟨b11, bc, b5, b0⟩ := take0_mask (StableHlo.after (hostOps0_1.take 8) W) _ a5
  obtain ⟨c12, c5, c0⟩ := take0_reduce (StableHlo.after ((hostOps0_1.drop 8).take 9) (StableHlo.after (hostOps0_1.take 8) W)) _ _ b11 bc
  rw [take0_select _ (W (Proc.devRef .tc main_arg0)) (Take.normIdx (W (Proc.devRef .tc main_v3))) _
    (c0.trans (b0.trans a0)) (c5.trans b5) c12]
  simp only [Take.takeFill, Take.gatherRows, Take.inRange]

/-- The take writes only its own values: the aggregated array, the row indices and the weight column pass through. -/
private theorem take0_x : StableHlo.after hostOps0_1 W (Proc.devRef .tc main_arg0) = W (Proc.devRef .tc main_arg0) := by
  simp only [hostOps0_1]
  after_results_simp
private theorem take0_row : StableHlo.after hostOps0_1 W (Proc.devRef .tc main_v1) = W (Proc.devRef .tc main_v1) := by
  simp only [hostOps0_1]
  after_results_simp
private theorem take0_attr : StableHlo.after hostOps0_1 W (Proc.devRef .tc main_v4) = W (Proc.devRef .tc main_v4) := by
  simp only [hostOps0_1]
  after_results_simp

/-- The third stretch scales the gathered rows by the weights, adds them into zeros at the rows the edge list's
    first row names, and adds the result to the aggregated array. -/
private theorem ops0_agg (h : FVec F S50000x128 .f32) (row : IVec S800000 32) (wcol : FVec F S800000x1 .f32)
    (g : FVec F S800000x128 .f32)
    (hx : W (Proc.devRef .tc main_arg0) = h) (hrow : W (Proc.devRef .tc main_v1) = row)
    (hw : W (Proc.devRef .tc main_v4) = wcol) (hg : W (Proc.devRef .tc main_v5) = g) :
    StableHlo.after hostOps0_2 W (Proc.devRef .tc main_v11)
      = addf h (Host.scatterAdd scatter_S50000x128_S800000x1_S800000x128_1_0_0_1
          (broadcastInDim S50000x128 ![] Gen.bcast_S_S50000x128 (constant S_ .f32 0x00000000#32))
          (broadcastInDim S800000x1 ![0] Gen.bcast_S800000_S800000x1_0 row)
          (mulf (broadcastInDim S800000x128 ![0, 1] Gen.bcast_S800000x1_S800000x128_0_1 wcol) g)) := by
  simp only [hostOps0_2]
  after_results_simp
  rw [hx, hrow, hw, hg]

end BeforeFirstCall

/-! ### The same three stretches between the calls: the same operations on other buffers, the aggregated array now the
    first call's output -/

section BetweenCalls

variable (W : Valuation τ sig (Elt F))

/-- The first stretch slices the edge list's second row out and flattens it: the node each edge reads from. -/
private theorem ops1_col : StableHlo.after hostOps1 W (Proc.devRef .tc main_v18) = Take.colOf (W (Proc.devRef .tc main_arg1)) := by
  simp only [hostOps1]
  after_results_simp
  rfl

/-- … and the first row likewise: the node each edge adds into. -/
private theorem ops1_row : StableHlo.after hostOps1 W (Proc.devRef .tc main_v16) = Take.rowOf (W (Proc.devRef .tc main_arg1)) := by
  simp only [hostOps1]
  after_results_simp
  rfl

/-- … and lays the edge weights out as a column. -/
private theorem ops1_attr : StableHlo.after hostOps1 W (Proc.devRef .tc main_v19)
    = broadcastInDim S800000x1 ![0] Gen.bcast_S800000_S800000x1_0 (W (Proc.devRef .tc main_arg2)) := by
  simp only [hostOps1]
  after_results_simp

/-- The first stretch leaves the aggregated array alone. -/
private theorem ops1_x : StableHlo.after hostOps1 W (Proc.devRef .tc main_v14) = W (Proc.devRef .tc main_v14) := by
  simp only [hostOps1]
  after_results_simp

/-- The take's first eight operations shift the negative indices by the number of rows and lay the result out as a
    column; they leave the gathered-from array alone. -/
private theorem take1_shift :
    StableHlo.after (hostOps1_1.take 8) W (Proc.devRef .tc main_call1_v5) = Take.normIdx (W (Proc.devRef .tc main_v18))
    ∧ StableHlo.after (hostOps1_1.take 8) W (Proc.devRef .tc main_v14) = W (Proc.devRef .tc main_v14) := by
  simp only [hostOps1_1, List.take_succ_cons, List.take_zero]
  constructor
  · after_results_simp
    rfl
  · after_results_simp

/-- The next nine compare the index column with 0 and with 49999 and conjoin the two bits of each entry, and write the
    reduction's start value; the index column and the gathered-from array pass through. -/
private theorem take1_mask (n : IVec S800000x1 32) (h5 : W (Proc.devRef .tc main_call1_v5) = n) :
    StableHlo.after ((hostOps1_1.drop 8).take 9) W (Proc.devRef .tc main_call1_v11)
      = andi (cmpi .sge n (broadcastInDim S800000x1 ![] Gen.bcast_S_S800000x1 (constantI S_ 32 0#32)))
          (cmpi .sle n (broadcastInDim S800000x1 ![0, 1] Gen.bcast_S1x1_S800000x1_0_1
            (broadcastInDim S1x1 ![1] Gen.bcast_S1_S1x1_1 (constantI S1 32 49999#32))))
    ∧ StableHlo.after ((hostOps1_1.drop 8).take 9) W (Proc.devRef .tc main_call1_c_3) = constantI S_ 1 1#1
    ∧ StableHlo.after ((hostOps1_1.drop 8).take 9) W (Proc.devRef .tc main_call1_v5) = n
    ∧ StableHlo.after ((hostOps1_1.drop 8).take 9) W (Proc.devRef .tc main_v14) = W (Proc.devRef .tc main_v14) := by
  simp only [hostOps1_1, List.drop_succ_cons, List.drop_zero, List.take_succ_cons, List.take_zero]
  refine ⟨?_, ?_, ?_, ?_⟩
  · after_results_simp
    rw [h5]
    rfl
  · after_results_simp
    rfl
  · after_results_simp
    exact h5
  · after_results_simp

/-- The and-reduction over the unit axis, one operation: one range bit per edge. -/
private theorem take1_reduce (a : IVec S800000x1 1) (c3 : IVec S_ 1)
    (h11 : W (Proc.devRef .tc main_call1_v11) = a) (hc : W (Proc.devRef .tc main_call1_c_3) = c3) :
    StableHlo.after ((hostOps1_1.drop 17).take 1) W (Proc.devRef .tc main_call1_v12)
      = Host.reduce IntOp.andi a c3 Gen.reducesTo_S800000x1_S800000_d1 Gen.h_S_
    ∧ StableHlo.after ((hostOps1_1.drop 17).take 1) W (Proc.devRef .tc main_call1_v5) = W (Proc.devRef .tc main_call1_v5)
    ∧ StableHlo.after ((hostOps1_1.drop 17).take 1) W (Proc.devRef .tc main_v14) = W (Proc.devRef .tc main_v14) := by
  simp only [hostOps1_1, List.drop_succ_cons, List.drop_zero, List.take_succ_cons, List.take_zero]
  refine ⟨?_, ?_, ?_⟩
  · after_results_simp
    simp only [StableHlo.TRef.ofBuf, StableHlo.TRef.toBuf, cast_eq]
    rw [h11, hc]
  · after_results_simp
  · after_results_simp

/-- The last five operations gather the rows at the index column and replace, by the range bits, the rows whose
    index is out of range with the constant row. -/
private theorem take1_select (h : FVec F S50000x128 .f32) (n : IVec S800000x1 32) (r : IVec S800000 1)
    (hx : W (Proc.devRef .tc main_v14) = h) (h5 : W (Proc.devRef .tc main_call1_v5) = n)
    (h12 : W (Proc.devRef .tc main_call1_v12) = r) :
    StableHlo.after (hostOps1_1.drop 18) W (Proc.devRef .tc main_v20)
      = select (broadcastInDim S800000x128 ![0] Gen.bcast_S800000_S800000x128_0 r)
          (Host.gather gather_S50000x128_S800000x1_S800000x128_1_0_n_n_0_1_1128 h n)
          (broadcastInDim S800000x128 ![] Gen.bcast_S_S800000x128 (constant S_ .f32 0x7FC00000#32)) := by
  simp only [hostOps1_1, List.drop_succ_cons, List.drop_zero]
  after_results_simp
  rw [hx, h5, h12]
  rfl

/-- The inlined take is the filling row gather of the array it reads, at the index vector it reads: its four pieces
    in order, each reading what the one before wrote. -/
private theorem take1_fill : StableHlo.after hostOps1_1 W (Proc.devRef .tc main_v20)
    = Take.takeFill (W (Proc.devRef .tc main_v14)) (W (Proc.devRef .tc main_v18)) := by
  have e : (hostOps1_1 : List (HloOp τ sig (Elt F)))
      = hostOps1_1.take 8 ++ ((hostOps1_1.drop 8).take 9 ++ ((hostOps1_1.drop 17).take 1 ++ hostOps1_1.drop 18)) := rfl
  rw [e, StableHlo.after_append, StableHlo.after_append, StableHlo.after_append]
  obtain ⟨a5, a0⟩ := take1_shift W
  obtain ⟨b11, bc, b5, b0⟩ := take1_mask (StableHlo.after (hostOps1_1.take 8) W) _ a5
  obtain ⟨c12, c5, c0⟩ := take1_reduce (StableHlo.after ((hostOps1_1.drop 8).take 9) (StableHlo.after (hostOps1_1.take 8) W)) _ _ b11 bc
  rw [take1_select _ (W (Proc.devRef .tc main_v14)) (Take.normIdx (W (Proc.devRef .tc main_v18))) _
    (c0.trans (b0.trans a0)) (c5.trans b5) c12]
  simp only [Take.takeFill, Take.gatherRows, Take.inRange]

/-- The take writes only its own values: the aggregated array, the row indices and the weight column pass through. -/
private theorem take1_x : StableHlo.after hostOps1_1 W (Proc.devRef .tc main_v14) = W (Proc.devRef .tc main_v14) := by
  simp only [hostOps1_1]
  after_results_simp
private theorem take1_row : StableHlo.after hostOps1_1 W (Proc.devRef .tc main_v16) = W (Proc.devRef .tc main_v16) := by
  simp only [hostOps1_1]
  after_results_simp
private theorem take1_attr : StableHlo.after hostOps1_1 W (Proc.devRef .tc main_v19) = W (Proc.devRef .tc main_v19) := by
  simp only [hostOps1_1]
  after_results_simp

/-- The third stretch scales the gathered rows by the weights, adds them into zeros at the rows the edge list's
    first row names, and adds the result to the aggregated array. -/
private theorem ops1_agg (h : FVec F S50000x128 .f32) (row : IVec S800000 32) (wcol : FVec F S800000x1 .f32)
    (g : FVec F S800000x128 .f32)
    (hx : W (Proc.devRef .tc main_v14) = h) (hrow : W (Proc.devRef .tc main_v16) = row)
    (hw : W (Proc.devRef .tc main_v19) = wcol) (hg : W (Proc.devRef .tc main_v20) = g) :
    StableHlo.after hostOps1_2 W (Proc.devRef .tc main_v26)
      = addf h (Host.scatterAdd scatter_S50000x128_S800000x1_S800000x128_1_0_0_1
          (broadcastInDim S50000x128 ![] Gen.bcast_S_S50000x128 (constant S_ .f32 0x00000000#32))
          (broadcastInDim S800000x1 ![0] Gen.bcast_S800000_S800000x1_0 row)
          (mulf (broadcastInDim S800000x128 ![0, 1] Gen.bcast_S800000x1_S800000x128_0_1 wcol) g)) := by
  simp only [hostOps1_2]
  after_results_simp
  rw [hx, hrow, hw, hg]

end BetweenCalls

/-! ### The first call leaves the program's arguments as launched -/

section Arguments

/-- An argument's buffer entering the first call: no host operation before it writes an argument. -/
private theorem W3_arg (c : Dev nD) (a : Ref sig .tc)
    (ha : a = main_arg1 ∨ a = main_arg2 ∨ a = main_arg5 ∨ a = main_arg6) :
    W3 m ρ c (Proc.devRef .tc a) = m ((c : Thread nD τ).loc a) := by
  show StableHlo.after hostOps0_2 (StableHlo.after hostOps0_1 (StableHlo.after hostOps0 (W0 m ρ c))) (Proc.devRef .tc a) = _
  simp only [hostOps0, hostOps0_1, hostOps0_2]
  rcases ha with rfl | rfl | rfl | rfl <;> after_results_simp

/-- … and the first call writes none: the edge list, the edge weights, the second layer's weights and bias are, when
    the first call returns, what the launch holds. -/
private theorem W4_arg1 (c : Dev nD) : W4 m ρ c (Proc.devRef .tc main_arg1) = m ((c : Thread nD τ).loc main_arg1) :=
  (W4_of_ne m ρ c main_arg1 (by decide)).trans (W3_arg m ρ c main_arg1 (Or.inl rfl))
private theorem W4_arg2 (c : Dev nD) : W4 m ρ c (Proc.devRef .tc main_arg2) = m ((c : Thread nD τ).loc main_arg2) :=
  (W4_of_ne m ρ c main_arg2 (by decide)).trans (W3_arg m ρ c main_arg2 (Or.inr (Or.inl rfl)))
private theorem W4_arg5 (c : Dev nD) : W4 m ρ c (Proc.devRef .tc main_arg5) = m ((c : Thread nD τ).loc main_arg5) :=
  (W4_of_ne m ρ c main_arg5 (by decide)).trans (W3_arg m ρ c main_arg5 (Or.inr (Or.inr (Or.inl rfl))))
private theorem W4_arg6 (c : Dev nD) : W4 m ρ c (Proc.devRef .tc main_arg6) = m ((c : Thread nD τ).loc main_arg6) :=
  (W4_of_ne m ρ c main_arg6 (by decide)).trans (W3_arg m ρ c main_arg6 (Or.inr (Or.inr (Or.inr rfl))))

end Arguments

/-- Entering the first call, window 0's array is the first aggregation of the input features. -/
theorem entry0_x (c : Dev nD) :
    V3 m ρ c main_v11 = Agg.aggFill (m ((c : Thread nD τ).loc main_arg0)) (m ((c : Thread nD τ).loc main_arg1)) (m ((c : Thread nD τ).loc main_arg2)) := by
  show StableHlo.after hostOps0_2 (StableHlo.after hostOps0_1 (StableHlo.after hostOps0 (W0 m ρ c))) (Proc.devRef .tc main_v11) = _
  rw [ops0_agg (StableHlo.after hostOps0_1 (StableHlo.after hostOps0 (W0 m ρ c)))
      (m ((c : Thread nD τ).loc main_arg0)) (Take.rowOf (m ((c : Thread nD τ).loc main_arg1)))
      (broadcastInDim S800000x1 ![0] Gen.bcast_S800000_S800000x1_0 (m ((c : Thread nD τ).loc main_arg2)))
      (Take.takeFill (m ((c : Thread nD τ).loc main_arg0)) (Take.colOf (m ((c : Thread nD τ).loc main_arg1))))
      ((take0_x _).trans (ops0_x _))
      ((take0_row _).trans (ops0_row _))
      ((take0_attr _).trans (ops0_attr _))
      ((take0_fill _).trans (congrArg₂ Take.takeFill (ops0_x _) (ops0_col _)))]
  simp only [Agg.aggFill, Agg.scatterScaled]

/-- … window 1's array is W1 transposed. -/
theorem entry0_w (c : Dev nD) :
    V3 m ρ c main_v12 = transpose S128x128 [1, 0] (m ((c : Thread nD τ).loc main_arg3)) Facts₀.transposes_S128x128_S128x128_1_0 := by
  show StableHlo.after hostOps0_2 (StableHlo.after hostOps0_1 (StableHlo.after hostOps0 (W0 m ρ c))) (Proc.devRef .tc main_v12) = _
  simp only [hostOps0, hostOps0_1, hostOps0_2]
  after_results_simp

/-- … window 2's array is b1 as a one-row matrix. -/
theorem entry0_b (c : Dev nD) :
    V3 m ρ c main_v13 = shapeCast S1x128 (m ((c : Thread nD τ).loc main_arg4)) Facts₀.shapeCasts_S128_S1x128 := by
  show StableHlo.after hostOps0_2 (StableHlo.after hostOps0_1 (StableHlo.after hostOps0 (W0 m ρ c))) (Proc.devRef .tc main_v13) = _
  simp only [hostOps0, hostOps0_1, hostOps0_2]
  after_results_simp
  rfl

/-- Entering the second call, window 0's array is the aggregation of the first call's output. -/
theorem entry1_x (c : Dev nD) :
    V7 m ρ c main_v26 = Agg.aggFill (W4 m ρ c (Proc.devRef .tc main_v14)) (m ((c : Thread nD τ).loc main_arg1)) (m ((c : Thread nD τ).loc main_arg2)) := by
  show StableHlo.after hostOps1_2 (StableHlo.after hostOps1_1 (StableHlo.after hostOps1 (W4 m ρ c))) (Proc.devRef .tc main_v26) = _
  rw [ops1_agg (StableHlo.after hostOps1_1 (StableHlo.after hostOps1 (W4 m ρ c)))
      (W4 m ρ c (Proc.devRef .tc main_v14)) (Take.rowOf (m ((c : Thread nD τ).loc main_arg1)))
      (broadcastInDim S800000x1 ![0] Gen.bcast_S800000_S800000x1_0 (m ((c : Thread nD τ).loc main_arg2)))
      (Take.takeFill (W4 m ρ c (Proc.devRef .tc main_v14)) (Take.colOf (m ((c : Thread nD τ).loc main_arg1))))
      ((take1_x _).trans (ops1_x _))
      ((take1_row _).trans ((ops1_row _).trans (by rw [W4_arg1])))
      ((take1_attr _).trans ((ops1_attr _).trans (by rw [W4_arg2])))
      ((take1_fill _).trans (congrArg₂ Take.takeFill (ops1_x _) ((ops1_col _).trans (by rw [W4_arg1]))))]
  simp only [Agg.aggFill, Agg.scatterScaled]

/-- … window 1's array is W2 transposed. -/
theorem entry1_w (c : Dev nD) :
    V7 m ρ c main_v27 = transpose S128x40 [1, 0] (m ((c : Thread nD τ).loc main_arg5)) Facts₀.transposes_S40x128_S128x40_1_0 := by
  show StableHlo.after hostOps1_2 (StableHlo.after hostOps1_1 (StableHlo.after hostOps1 (W4 m ρ c))) (Proc.devRef .tc main_v27) = _
  simp only [hostOps1, hostOps1_1, hostOps1_2]
  after_results_simp
  rw [W4_arg5]

/-- … window 2's array is b2 as a one-row matrix. -/
theorem entry1_b (c : Dev nD) :
    V7 m ρ c main_v28 = shapeCast S1x40 (m ((c : Thread nD τ).loc main_arg6)) Facts₀.shapeCasts_S40_S1x40 := by
  show StableHlo.after hostOps1_2 (StableHlo.after hostOps1_1 (StableHlo.after hostOps1 (W4 m ρ c))) (Proc.devRef .tc main_v28) = _
  simp only [hostOps1, hostOps1_1, hostOps1_2]
  after_results_simp
  rw [W4_arg6]
  rfl

/-- A length-128 vector reshaped to one row is the specification's row layout. -/
theorem row128 (b : FVec Ideal S128 .f32) : shapeCast S1x128 b Facts₀.shapeCasts_S128_S1x128 = Spec.asRow128 b := by
  funext j
  obtain ⟨r, q, rfl⟩ : ∃ r q, j = ix2 r q := ⟨j 0, j 1, eq_ix2 j⟩
  exact shapeCast_a_1a_apply b _ r q

/-- A length-40 vector reshaped to one row is the specification's row layout. -/
theorem row40 (b : FVec Ideal S40 .f32) : shapeCast S1x40 b Facts₀.shapeCasts_S40_S1x40 = Spec.asRow40 b := by
  funext j
  obtain ⟨r, q, rfl⟩ : ∃ r q, j = ix2 r q := ⟨j 0, j 1, eq_ix2 j⟩
  exact shapeCast_a_1a_apply b _ r q

end Cert.KernelIdeal.HostChain

end
-- ==== Proof.RefValue.lean ====
/-
  The reference's two dense layers are the specification's two functions.

  After each aggregation the reference multiplies by the transposed weights (a dot_general contracting the 128 features),
  adds the bias broadcast down the rows, and applies the activation: max with 0 for the first layer; for the second the
  log-softmax over the 40 columns, written as jax writes it — the row maximum (a max-reduction from −∞, then once more a
  max with −∞), the shift, exp, the row sum from 0, log, and the second subtraction. Entry by entry these are
  `Spec.linRelu` and `Spec.linLogSoftmax` of the aggregated array, the transposed weights and the bias as a row.
-/
import proofs.«424046_j57440892616781_1_alg».proof.Proof.RefRead
import proofs.«424046_j57440892616781_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.ValueIdx

/-- The first layer's output is max(X·Wt + b, 0) of the first aggregation. -/
theorem layer1 (x0 : (⟨S50000x128, .f32⟩ : BufTy).Contents (Elt Ideal)) (x1 : (⟨S2x800000, .i32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal)) :
    val_main_v23 (F := Ideal) x0 x1 x2 x3 x4
      = Spec.linRelu (val_main_v17 (F := Ideal) x0 x1 x2) (val_main_v18 (F := Ideal) x3) (Spec.asRow128 x4) := by
  funext i
  obtain ⟨p, q, rfl⟩ : ∃ (p : Fin 50000) (q : Fin 128), i = ix2 p q := ⟨i 0, i 1, eq_ix2 i⟩
  -- the contraction pairs X[p,k] with Wt[k,q]; the bias, broadcast twice, is read at column q
  have eL : ∀ k : Fin 128, lidx_main_v19 (ix2 p q) k = ix2 p k := fun k =>
    funext fun a => Fin.ext (by match a with | ⟨0, _⟩ => rfl | ⟨1, _⟩ => rfl)
  have eR : ∀ k : Fin 128, ridx_main_v19 (ix2 p q) k = ix2 k q := fun k =>
    funext fun a => Fin.ext (by match a with | ⟨0, _⟩ => rfl | ⟨1, _⟩ => rfl)
  have eB : idx_main_v20 (idx_main_v21 (ix2 p q)) = ix1 q :=
    funext fun a => Fin.ext (by match a with | ⟨0, _⟩ => rfl)
  rw [val_main_v23_apply, val_main_v22_apply, val_main_v19_apply, val_main_v21_apply, val_main_v20_apply,
    val_main_call0_v0_apply, val_main_call0_cst_apply]
  generalize val_main_v17 (F := Ideal) x0 x1 x2 = X
  generalize val_main_v18 (F := Ideal) x3 = Wt
  simp only [eL, eR, eB, Spec.linRelu_apply, Spec.affine128, Spec.asRow128_apply,
    Ideal.addf_def, Ideal.maximumf_def, Ideal.ofBits_def]

/-- The logits: entry (p, q) of the sum of the contraction and the broadcast bias is the affine form. -/
private theorem logits (x0 : (⟨S50000x128, .f32⟩ : BufTy).Contents (Elt Ideal)) (x1 : (⟨S2x800000, .i32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal)) (x5 : (⟨S40x128, .f32⟩ : BufTy).Contents (Elt Ideal)) (x6 : (⟨S40, .f32⟩ : BufTy).Contents (Elt Ideal)) (p : Fin 50000) (q : Fin 40) :
    val_main_v46 (F := Ideal) x0 x1 x2 x3 x4 x5 x6 (ix2 p q) = (Spec.affine40 (val_main_v41 (F := Ideal) x0 x1 x2 x3 x4) (val_main_v42 (F := Ideal) x5) (Spec.asRow40 x6)) p q := by
  -- the contraction pairs X[p,k] with Wt[k,q]; the bias, broadcast twice, is read at column q
  have eL : ∀ k : Fin 128, lidx_main_v43 (ix2 p q) k = ix2 p k := fun k =>
    funext fun a => Fin.ext (by match a with | ⟨0, _⟩ => rfl | ⟨1, _⟩ => rfl)
  have eR : ∀ k : Fin 128, ridx_main_v43 (ix2 p q) k = ix2 k q := fun k =>
    funext fun a => Fin.ext (by match a with | ⟨0, _⟩ => rfl | ⟨1, _⟩ => rfl)
  have eB : idx_main_v44 (idx_main_v45 (ix2 p q)) = ix1 q :=
    funext fun a => Fin.ext (by match a with | ⟨0, _⟩ => rfl)
  rw [val_main_v46_apply, val_main_v43_apply, val_main_v45_apply, val_main_v44_apply]
  generalize val_main_v41 (F := Ideal) x0 x1 x2 x3 x4 = X
  generalize val_main_v42 (F := Ideal) x5 = Wt
  simp only [eL, eR, eB, Spec.affine40, Spec.asRow40_apply, Ideal.addf_def]

/-- The word 0xFF800000 is −∞, the least extended real. -/
private theorem negInf_eq_bot : Ideal.ofBits .f32 0xFF800000#32 = (⊥ : EReal) := by
  simp [Ideal.ofBits, Ideal.ieee]

/-- The row maximum: the max-reduction over the 40 columns from −∞, then once more a max with −∞ (which changes
    nothing: max ⊥ y = y), is the fold of max over the row's logits. -/
private theorem rowMaxEq (x0 : (⟨S50000x128, .f32⟩ : BufTy).Contents (Elt Ideal)) (x1 : (⟨S2x800000, .i32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal)) (x5 : (⟨S40x128, .f32⟩ : BufTy).Contents (Elt Ideal)) (x6 : (⟨S40, .f32⟩ : BufTy).Contents (Elt Ideal)) (p : Fin 50000) :
    val_main_call1_v2 (F := Ideal) x0 x1 x2 x3 x4 x5 x6 (ix1 p) = Spec.rowMax (Spec.affine40 (val_main_v41 (F := Ideal) x0 x1 x2 x3 x4) (val_main_v42 (F := Ideal) x5) (Spec.asRow40 x6)) p := by
  have hR : S50000x40.Reduces [1] S50000 := by decide
  have hmax : ∀ y : EReal, max (Ideal.ofBits .f32 0xFF800000#32) y = y := fun y => by
    rw [negInf_eq_bot, max_bot_left]
  rw [val_main_call1_v2_apply, val_main_call1_v1_apply, val_main_call1_cst_0_apply]
  unfold val_main_call1_v0
  -- a reduction over the one axis of columns is the fold over that axis's 40 coordinates
  rw [Host.reduce_eq_fold_single FloatOps.maximumf _ _ reducesTo_S50000x40_S50000_d1 hR h_S_ (ix1 p),
    val_main_call1_cst_apply]
  simp only [Ideal.ofBits_def, Ideal.maximumf_def]
  rw [hmax]
  unfold Spec.rowMax
  show Finset.fold max (Ideal.ofBits .f32 0xFF800000#32)
      (fun k : Fin 40 => val_main_v46 (F := Ideal) x0 x1 x2 x3 x4 x5 x6 (hR.lift (ix1 p) k)) Finset.univ = _
  refine Finset.fold_congr (fun k _ => ?_)
  -- row p with column k inserted is the index (p, k)
  have e : hR.lift (ix1 p) k = ix2 p k :=
    funext fun a => Fin.ext (by match a with | ⟨0, _⟩ => rfl | ⟨1, _⟩ => rfl)
  rw [e, logits]

/-- The shifted logits: the row maximum, broadcast back along the columns, is subtracted. -/
private theorem shifted (x0 : (⟨S50000x128, .f32⟩ : BufTy).Contents (Elt Ideal)) (x1 : (⟨S2x800000, .i32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal)) (x5 : (⟨S40x128, .f32⟩ : BufTy).Contents (Elt Ideal)) (x6 : (⟨S40, .f32⟩ : BufTy).Contents (Elt Ideal)) (p : Fin 50000) (q : Fin 40) :
    val_main_call1_v5 (F := Ideal) x0 x1 x2 x3 x4 x5 x6 (ix2 p q) = (Spec.affine40 (val_main_v41 (F := Ideal) x0 x1 x2 x3 x4) (val_main_v42 (F := Ideal) x5) (Spec.asRow40 x6)) p q - Spec.rowMax (Spec.affine40 (val_main_v41 (F := Ideal) x0 x1 x2 x3 x4) (val_main_v42 (F := Ideal) x5) (Spec.asRow40 x6)) p := by
  have e : idx_main_call1_v3 (idx_main_call1_v4 (ix2 p q)) = ix1 p :=
    funext fun a => Fin.ext (by match a with | ⟨0, _⟩ => rfl)
  rw [val_main_call1_v5_apply, val_main_call1_v4_apply, val_main_call1_v3_apply, e, logits, rowMaxEq]
  simp only [Ideal.subf_def]

/-- The row sum: the add-reduction from 0 over the 40 columns of the exponentials of the shifted logits (0 + s = s). -/
private theorem rowSum (x0 : (⟨S50000x128, .f32⟩ : BufTy).Contents (Elt Ideal)) (x1 : (⟨S2x800000, .i32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal)) (x5 : (⟨S40x128, .f32⟩ : BufTy).Contents (Elt Ideal)) (x6 : (⟨S40, .f32⟩ : BufTy).Contents (Elt Ideal)) (p : Fin 50000) :
    val_main_call1_v7 (F := Ideal) x0 x1 x2 x3 x4 x5 x6 (ix1 p)
      = ∑ q' : Fin 40, Ideal.exp ((Spec.affine40 (val_main_v41 (F := Ideal) x0 x1 x2 x3 x4) (val_main_v42 (F := Ideal) x5) (Spec.asRow40 x6)) p q' - Spec.rowMax (Spec.affine40 (val_main_v41 (F := Ideal) x0 x1 x2 x3 x4) (val_main_v42 (F := Ideal) x5) (Spec.asRow40 x6)) p) := by
  have e : ∀ k : Fin 40, idx_main_call1_v7 (ix1 p) k = ix2 p k := fun k =>
    funext fun a => Fin.ext (by match a with | ⟨0, _⟩ => rfl | ⟨1, _⟩ => rfl)
  rw [val_main_call1_v7_apply, val_main_call1_cst_1_apply]
  simp only [e, val_main_call1_v6_apply, shifted, Ideal.ofBits_def, Ideal.ofBits_zero_f32, zero_add,
    Ideal.hostUnary_exp_def]

/-- The result is the log-softmax over the columns of X·Wt + b of the second aggregation. -/
theorem layer2 (x0 : (⟨S50000x128, .f32⟩ : BufTy).Contents (Elt Ideal)) (x1 : (⟨S2x800000, .i32⟩ : BufTy).Contents (Elt Ideal)) (x2 : (⟨S800000, .f32⟩ : BufTy).Contents (Elt Ideal))
    (x3 : (⟨S128x128, .f32⟩ : BufTy).Contents (Elt Ideal)) (x4 : (⟨S128, .f32⟩ : BufTy).Contents (Elt Ideal)) (x5 : (⟨S40x128, .f32⟩ : BufTy).Contents (Elt Ideal)) (x6 : (⟨S40, .f32⟩ : BufTy).Contents (Elt Ideal)) :
    val_main_v47 (F := Ideal) x0 x1 x2 x3 x4 x5 x6
      = Spec.linLogSoftmax (val_main_v41 (F := Ideal) x0 x1 x2 x3 x4) (val_main_v42 (F := Ideal) x5) (Spec.asRow40 x6) := by
  funext i
  obtain ⟨p, q, rfl⟩ : ∃ (p : Fin 50000) (q : Fin 40), i = ix2 p q := ⟨i 0, i 1, eq_ix2 i⟩
  -- the logarithm of the row sum, broadcast back along the columns, is read at row p
  have e : idx_main_call1_v8 (idx_main_call1_v10 (ix2 p q)) = ix1 p :=
    funext fun a => Fin.ext (by match a with | ⟨0, _⟩ => rfl)
  rw [val_main_v47_apply, shifted, val_main_call1_v10_apply, val_main_call1_v9_apply, val_main_call1_v8_apply, e, rowSum,
    Spec.linLogSoftmax_apply]
  simp only [Ideal.subf_def, Ideal.hostUnary_log_def, Spec.logSoftmaxRow]

end Cert.ReferenceIdeal.RefValue

end
-- ==== Proof.Bridge.lean ====
/-
  The two programs compute one function.

  Write agg for one graph aggregation h ↦ h + A·h (Agg.lean), Wᵀ for a transposed weight matrix and row(b) for a bias
  laid out as one row. Both programs end at

      out = linLogSoftmax (agg (linRelu (agg x) W1ᵀ row(b1))) W2ᵀ row(b2).

  The kernel's program: its result array is what the second pallas_call's write-backs leave (`Region1.final1`), of the
  arrays the host prepared between the calls (`HostChain.entry1_*`), whose first is the aggregation of the first call's
  output (`Region0.final0`, `HostChain.entry0_*`); its aggregations gather with a fill, which under the precondition's
  index range is the plain gather (`Agg.aggFill_eq_agg`). The reference: its last stage is the same composition
  (`RefValue.layer1`, `layer2`), its aggregation stages being `agg` — the same host operations, spelt with the
  reference's own names for the same shape facts.
-/
import proofs.«424046_j57440892616781_1_alg».proof.Proof.KernelRun
import proofs.«424046_j57440892616781_1_alg».proof.Proof.Region0
import proofs.«424046_j57440892616781_1_alg».proof.Proof.Region1
import proofs.«424046_j57440892616781_1_alg».proof.Proof.KernelHost
import proofs.«424046_j57440892616781_1_alg».proof.Proof.Agg
import proofs.«424046_j57440892616781_1_alg».proof.Proof.RefValue

set_option maxRecDepth 16384

noncomputable section

namespace Cert.Bridge

open Idealize.ShloMosaic Idealize.ShloMosaic.TcCoe Idealize.SL.Sem
open Cert.KernelIdeal.Agg Cert.KernelIdeal.Take

/-- The common result, as one function of the seven arguments. -/
def out (x : FVec Ideal Cert.KernelIdeal.S50000x128 .f32) (ei : IVec Cert.KernelIdeal.S2x800000 32) (attr : FVec Ideal Cert.KernelIdeal.S800000 .f32)
    (w1 : FVec Ideal Cert.KernelIdeal.S128x128 .f32) (b1 : FVec Ideal Cert.KernelIdeal.S128 .f32)
    (w2 : FVec Ideal Cert.KernelIdeal.S40x128 .f32) (b2 : FVec Ideal Cert.KernelIdeal.S40 .f32) : FVec Ideal Cert.KernelIdeal.S50000x40 .f32 :=
  Spec.linLogSoftmax
    (agg (Spec.linRelu (agg x ei attr)
        (transpose Cert.KernelIdeal.S128x128 [1, 0] w1 Cert.KernelIdeal.Facts₀.transposes_S128x128_S128x128_1_0) (Spec.asRow128 b1)) ei attr)
    (transpose Cert.KernelIdeal.S128x40 [1, 0] w2 Cert.KernelIdeal.Facts₀.transposes_S40x128_S128x40_1_0) (Spec.asRow40 b2)

/-! ## The reference's aggregation and transposition stages, in the kernel program's spelling -/

section Reference
variable {F : FTy → Type} [FloatOps F]

/-- The reference's first aggregation is `agg` of the input features. -/
theorem ref_agg1 (x0 : FVec F Cert.KernelIdeal.S50000x128 .f32) (x1 : IVec Cert.KernelIdeal.S2x800000 32) (x2 : FVec F Cert.KernelIdeal.S800000 .f32) :
    Cert.ReferenceIdeal.ReadP.val_main_v17 (F := F) x0 x1 x2 = agg x0 x1 x2 := by
  unfold Cert.ReferenceIdeal.ReadP.val_main_v17 Cert.ReferenceIdeal.ReadP.val_main_v16 Cert.ReferenceIdeal.ReadP.val_main_v15 Cert.ReferenceIdeal.ReadP.val_main_v14 Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_v5 Cert.ReferenceIdeal.ReadP.val_main_v4 Cert.ReferenceIdeal.ReadP.val_main_v3 Cert.ReferenceIdeal.ReadP.val_main_v2 Cert.ReferenceIdeal.ReadP.val_main_v1 Cert.ReferenceIdeal.ReadP.val_main_v0 Cert.ReferenceIdeal.ReadP.val_main_c Cert.ReferenceIdeal.ReadP.val_main_c_0 Cert.ReferenceIdeal.ReadP.val_main_cst
  unfold agg scatterScaled gatherRows normIdx colOf rowOf
  rfl

/-- The reference's second aggregation is `agg` of its first layer's output. -/
theorem ref_agg2 (x0 : FVec F Cert.KernelIdeal.S50000x128 .f32) (x1 : IVec Cert.KernelIdeal.S2x800000 32) (x2 : FVec F Cert.KernelIdeal.S800000 .f32)
    (x3 : FVec F Cert.KernelIdeal.S128x128 .f32) (x4 : FVec F Cert.KernelIdeal.S128 .f32) :
    Cert.ReferenceIdeal.ReadP.val_main_v41 (F := F) x0 x1 x2 x3 x4 = agg (Cert.ReferenceIdeal.ReadP.val_main_v23 (F := F) x0 x1 x2 x3 x4) x1 x2 := by
  unfold Cert.ReferenceIdeal.ReadP.val_main_v41 Cert.ReferenceIdeal.ReadP.val_main_v40 Cert.ReferenceIdeal.ReadP.val_main_v39 Cert.ReferenceIdeal.ReadP.val_main_v38 Cert.ReferenceIdeal.ReadP.val_main_v37 Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_c_1 Cert.ReferenceIdeal.ReadP.val_main_c_2 Cert.ReferenceIdeal.ReadP.val_main_cst_3
  unfold agg scatterScaled gatherRows normIdx colOf rowOf
  rfl

/-- The reference transposes W1 as the kernel's program does. -/
theorem ref_w1t (x3 : FVec F Cert.KernelIdeal.S128x128 .f32) :
    Cert.ReferenceIdeal.ReadP.val_main_v18 (F := F) x3 = transpose Cert.KernelIdeal.S128x128 [1, 0] x3 Cert.KernelIdeal.Facts₀.transposes_S128x128_S128x128_1_0 := by
  unfold Cert.ReferenceIdeal.ReadP.val_main_v18; rfl

/-- The reference transposes W2 as the kernel's program does. -/
theorem ref_w2t (x5 : FVec F Cert.KernelIdeal.S40x128 .f32) :
    Cert.ReferenceIdeal.ReadP.val_main_v42 (F := F) x5 = transpose Cert.KernelIdeal.S128x40 [1, 0] x5 Cert.KernelIdeal.Facts₀.transposes_S40x128_S128x40_1_0 := by
  unfold Cert.ReferenceIdeal.ReadP.val_main_v42; rfl

end Reference

/-- The reference's last stage is the common result. -/
theorem ref_value (x0 : FVec Ideal Cert.KernelIdeal.S50000x128 .f32) (x1 : IVec Cert.KernelIdeal.S2x800000 32) (x2 : FVec Ideal Cert.KernelIdeal.S800000 .f32)
    (x3 : FVec Ideal Cert.KernelIdeal.S128x128 .f32) (x4 : FVec Ideal Cert.KernelIdeal.S128 .f32) (x5 : FVec Ideal Cert.KernelIdeal.S40x128 .f32)
    (x6 : FVec Ideal Cert.KernelIdeal.S40 .f32) :
    Cert.ReferenceIdeal.ReadP.val_main_v47 (F := Ideal) x0 x1 x2 x3 x4 x5 x6 = out x0 x1 x2 x3 x4 x5 x6 := by
  rw [Cert.ReferenceIdeal.RefValue.layer2, ref_agg2, Cert.ReferenceIdeal.RefValue.layer1, ref_agg1, ref_w1t, ref_w2t]
  rfl

/-! ## The kernel program's result array -/

section Kernel
open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)

/-- What the first pallas_call leaves in its output array: the first layer of the common result. -/
theorem hidden_value (c : Dev Cert.KernelIdeal.nD)
    (hcol : ∀ e : Cert.KernelIdeal.S800000.Idx, -50000 ≤ (colOf (m ((c : Thread Cert.KernelIdeal.nD Cert.KernelIdeal.τ).loc Cert.KernelIdeal.main_arg1)) e).toInt ∧ (colOf (m ((c : Thread Cert.KernelIdeal.nD Cert.KernelIdeal.τ).loc Cert.KernelIdeal.main_arg1)) e).toInt < 50000) :
    W4 (F := Ideal) m ρ c (Proc.devRef .tc main_v14)
      = Spec.linRelu (agg (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)))
          (transpose Cert.KernelIdeal.S128x128 [1, 0] (m ((c : Thread Cert.KernelIdeal.nD Cert.KernelIdeal.τ).loc Cert.KernelIdeal.main_arg3)) Cert.KernelIdeal.Facts₀.transposes_S128x128_S128x128_1_0)
          (Spec.asRow128 (m ((c : Thread Cert.KernelIdeal.nD Cert.KernelIdeal.τ).loc Cert.KernelIdeal.main_arg4))) := by
  refine (W4_arr m ρ c 3).trans ?_
  rw [Cert.KernelIdeal.Region0.final0 (V3 m ρ) c]
  show Spec.linRelu (V3 m ρ c main_v11) (V3 m ρ c main_v12) (V3 m ρ c main_v13) = _
  rw [Cert.KernelIdeal.HostChain.entry0_x, Cert.KernelIdeal.HostChain.entry0_w, Cert.KernelIdeal.HostChain.entry0_b,
    Cert.KernelIdeal.HostChain.row128, aggFill_eq_agg _ _ _ hcol]

/-- The kernel program's result array, at the last segment boundary, is the common result of the launch memory's
    arguments — given the index range the precondition states. -/
theorem kernel_value (c : Dev Cert.KernelIdeal.nD)
    (hcol : ∀ e : Cert.KernelIdeal.S800000.Idx, -50000 ≤ (colOf (m ((c : Thread Cert.KernelIdeal.nD Cert.KernelIdeal.τ).loc Cert.KernelIdeal.main_arg1)) e).toInt ∧ (colOf (m ((c : Thread Cert.KernelIdeal.nD Cert.KernelIdeal.τ).loc Cert.KernelIdeal.main_arg1)) e).toInt < 50000) :
    W8 (F := Ideal) m ρ c (Proc.devRef .tc main_v29)
      = out (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4))
          (m ((c : Thread Cert.KernelIdeal.nD Cert.KernelIdeal.τ).loc Cert.KernelIdeal.main_arg5)) (m ((c : Thread Cert.KernelIdeal.nD Cert.KernelIdeal.τ).loc Cert.KernelIdeal.main_arg6)) := by
  refine (W8_arr m ρ c 3).trans ?_
  rw [Cert.KernelIdeal.Region1.final1 (V7 m ρ) c]
  show Spec.linLogSoftmax (V7 m ρ c main_v26) (V7 m ρ c main_v27) (V7 m ρ c main_v28) = _
  rw [Cert.KernelIdeal.HostChain.entry1_x, Cert.KernelIdeal.HostChain.entry1_w, Cert.KernelIdeal.HostChain.entry1_b,
    Cert.KernelIdeal.HostChain.row40, hidden_value m ρ c hcol, aggFill_eq_agg _ _ _ hcol]
  rfl

end Kernel

end Cert.Bridge

end
-- ==== Proof.lean ====
/-
  Kernel against reference: a two-layer graph network, out = log_softmax((h + A·h) W2ᵀ + b2) with
  h = relu((x + A·x) W1ᵀ + b1), the sparse products A·(·) on the host in both programs and the two dense layers in two
  pallas_calls of the kernel's program.

  The precondition is finiteness of the float inputs together with the index range of the edge list's second row,
  −50000 ≤ col < 50000: the range in which the reference's row lookup h[col] is an in-range lookup. It is what makes the
  kernel program's gather (which fills out-of-range rows with a constant) the reference's gather; finiteness is not used:
  the two sides are the same sums in the same order, and the only laws met are max(−∞, x) = x and 0 + s = s.

  The three frames: the kernel's two programs by their generated frame certificates; the reference's by its run read
  back stage by stage (RefStaged.lean) with the result dropped. The idealization rewrote no operation, so `preserves`
  is trivial. `algebraic`: the kernel program's run with its result array named (KernelRun.lean) ends at the common
  value by `Bridge.kernel_value`, the reference's run at the same value by `Bridge.ref_value`, the arguments agreeing.
-/
import proofs.«424046_j57440892616781_1_alg».proof.Defs
import proofs.«424046_j57440892616781_1_alg».proof.Proof.Gen.Kernel
import proofs.«424046_j57440892616781_1_alg».proof.Proof.Gen.Kernel.Skeleton
import proofs.«424046_j57440892616781_1_alg».proof.Proof.Gen.Kernel.Launch
import proofs.«424046_j57440892616781_1_alg».proof.Proof.Gen.Kernel.Points
import proofs.«424046_j57440892616781_1_alg».proof.Proof.Gen.Kernel.Frame
import proofs.«424046_j57440892616781_1_alg».proof.Proof.Gen.KernelIdeal
import proofs.«424046_j57440892616781_1_alg».proof.Proof.Gen.KernelIdeal.Skeleton
import proofs.«424046_j57440892616781_1_alg».proof.Proof.Gen.KernelIdeal.Launch
import proofs.«424046_j57440892616781_1_alg».proof.Proof.Gen.KernelIdeal.Points
import proofs.«424046_j57440892616781_1_alg».proof.Proof.Gen.KernelIdeal.Frame
import proofs.«424046_j57440892616781_1_alg».proof.Proof.Gen.ReferenceIdeal
import proofs.«424046_j57440892616781_1_alg».proof.Proof.Gen.Pre_finite_inputs
import proofs.«424046_j57440892616781_1_alg».proof.Proof.KernelRun
import proofs.«424046_j57440892616781_1_alg».proof.Proof.RefStaged
import proofs.«424046_j57440892616781_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its staged run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- The ideal pass rewrote nothing: the idealization is the program's own text read at the ideal values. -/
theorem preserves : Cert.preserves_Kernel_KernelIdeal := trivial

/-- Both programs end at `Bridge.out` of the arguments. -/
theorem algebraic : Cert.algebraic_KernelIdeal_ReferenceIdeal := by
  intro m ρ m' ρ' hpre hagree
  have hcol : ∀ c : Dev Cert.KernelIdeal.nD, ∀ e : Cert.KernelIdeal.S800000.Idx,
      -50000 ≤ (Cert.KernelIdeal.Take.colOf (m ((c.tc : Thread Cert.KernelIdeal.nD Cert.KernelIdeal.τ).loc Cert.KernelIdeal.main_arg1)) e).toInt
        ∧ (Cert.KernelIdeal.Take.colOf (m ((c.tc : Thread Cert.KernelIdeal.nD Cert.KernelIdeal.τ).loc Cert.KernelIdeal.main_arg1)) e).toInt < 50000 :=
    fun c => Cert.KernelIdeal.Take.col_range_of_pre _ _ _ _ _ _ _ (hpre c)
  refine ⟨fun c => Cert.Bridge.out
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Bridge.kernel_value m ρ c (hcol c)), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Staged.run (F := Ideal) m' ρ')
    rw [(hagree c).1, (hagree c).2.1, (hagree c).2.2.1, (hagree c).2.2.2.1, (hagree c).2.2.2.2.1,
      (hagree c).2.2.2.2.2.1, (hagree c).2.2.2.2.2.2]
    exact Cert.Bridge.ref_value _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
